-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x6 : Shape := ⟨2, ![8192, 6]⟩
abbrev S8192 : Shape := ⟨1, ![8192]⟩
abbrev S_ : Shape := ⟨0, ![]⟩

class Facts : Prop where
  bcast_S_S8192x6 : S_.BroadcastsInDim S8192x6 (![] : Fin 0 → Fin S8192x6.rank)
  reducesTo_S8192x6_S_d0_1 : S8192x6.ReducesTo [0, 1] S_
  h_S_ : 0 < S_.numel

variable [Facts]

def fn {F : FTy → Type} [FloatOps F] (main_arg0 : FVec F S8192x6 .f32) (main_arg1 : IVec S8192 32) : IVec S_ 1 :=
  let main_v0 : FVec F S8192x6 .f32 := Host.absf main_arg0
  let main_cst : FVec F S_ .f32 := constant S_ .f32 0x7F800000#32
  let main_v1 : FVec F S8192x6 .f32 := broadcastInDim S8192x6 ![] bcast_S_S8192x6 main_cst
  let main_v2 : IVec S8192x6 1 := cmpf .olt main_v0 main_v1
  let main_c : IVec S_ 1 := constantI S_ 1 1#1
  let main_v3 : IVec S_ 1 := (fun x v => Host.reduce IntOp.andi x v reducesTo_S8192x6_S_d0_1 h_S_) main_v2 main_c
  main_v3
-- ==== Kernel.lean ====
abbrev S8192x6 : Shape := ⟨2, ![8192, 6]⟩
abbrev S8192 : Shape := ⟨1, ![8192]⟩
abbrev S8192x3 : Shape := ⟨2, ![8192, 3]⟩
abbrev S8192x1 : Shape := ⟨2, ![8192, 1]⟩
abbrev S1x8192 : Shape := ⟨2, ![1, 8192]⟩
abbrev S1024x3 : Shape := ⟨2, ![1024, 3]⟩
abbrev S1024x1 : Shape := ⟨2, ![1024, 1]⟩
abbrev S1024 : Shape := ⟨1, ![1024]⟩
abbrev S3x1024 : Shape := ⟨2, ![3, 1024]⟩
abbrev S1024x1024 : Shape := ⟨2, ![1024, 1024]⟩
abbrev S1x1024 : Shape := ⟨2, ![1, 1024]⟩
abbrev S8192x8192 : Shape := ⟨2, ![8192, 8192]⟩

abbrev nBuf : Space → Nat
  | .hbm => 7
  | .vmem => 19
  | .smem => 0
  | _ => 0

abbrev bufTy : (tb : Table) → Fin (tcTables nBuf tb) → BufTy
  | .hbm, ⟨0, _⟩ => ⟨S8192x6, .f32⟩
  | .hbm, ⟨1, _⟩ => ⟨S8192, .i32⟩
  | .hbm, ⟨2, _⟩ => ⟨S8192x3, .f32⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x8192, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x3, .f32⟩
  | .local _ .vmem, ⟨8, _⟩ => ⟨S1024x3, .f32⟩
  | .local _ .vmem, ⟨9, _⟩ => ⟨S1024x3, .f32⟩
  | .local _ .vmem, ⟨10, _⟩ => ⟨S1024x3, .f32⟩
  | .local _ .vmem, ⟨11, _⟩ => ⟨S1024x1, .i32⟩
  | .local _ .vmem, ⟨12, _⟩ => ⟨S1024x1, .i32⟩
  | .local _ .vmem, ⟨13, _⟩ => ⟨S1x1024, .i32⟩
  | .local _ .vmem, ⟨14, _⟩ => ⟨S1x1024, .i32⟩
  | .local _ .vmem, ⟨15, _⟩ => ⟨S1024x1, .f32⟩
  | .local _ .vmem, ⟨16, _⟩ => ⟨S1024x1, .f32⟩
  | .local _ .vmem, ⟨17, _⟩ => ⟨S1024x1024, .f32⟩
  | .local _ .vmem, ⟨18, _⟩ => ⟨S1024x1024, .f32⟩
  | _, _ => ⟨S8192x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S8192x6_S8192x3_0_0 : S8192x6.Slices ![0, 0] S8192x3
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  reduces_S1024x3_S1024 : S1024x3.Reduces [1] S1024
  shapeCasts_S1024_S1024x1 : S1024.ShapeCasts S1024x1
  transposes_S1024x3_p1_0_S3x1024 : S1024x3.Transposes [1, 0] S3x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S8192x3.size a
  hwx0_1 : ∀ i : grid0.Coords, EltTy.bits .f32 = 32 ∨ (Rect.block (s := S8192x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S8192x3.size a
  hwx1_0 : ∀ i : grid1.Coords, EltTy.bits .f32 = 32 ∨ (Rect.block (s := S8192x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S8192x3.size a
  hwx1_1 : ∀ i : grid1.Coords, EltTy.bits .f32 = 32 ∨ (Rect.block (s := S8192x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x8192.size a
  hwx1_5 : ∀ i : grid1.Coords, EltTy.bits .f32 = 32 ∨ (Rect.block (s := S8192x8192) S1024x1024.size (cc1_transform_5 i) (hinb1_5 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_v0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x6 : Shape := ⟨2, ![8192, 6]⟩
abbrev S8192 : Shape := ⟨1, ![8192]⟩
abbrev S3 : Shape := ⟨1, ![3]⟩
abbrev S_ : Shape := ⟨0, ![]⟩
abbrev S3x1 : Shape := ⟨2, ![3, 1]⟩
abbrev S8192x3 : Shape := ⟨2, ![8192, 3]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x6, .f32⟩
  | .hbm, ⟨1, _⟩ => ⟨S8192, .i32⟩
  | .hbm, ⟨2, _⟩ => ⟨S3, .i32⟩
  | .hbm, ⟨3, _⟩ => ⟨S_, .i32⟩
  | .hbm, ⟨4, _⟩ => ⟨S3, .i32⟩
  | .hbm, ⟨5, _⟩ => ⟨S3, .i1⟩
  | .hbm, ⟨6, _⟩ => ⟨S_, .i32⟩
  | .hbm, ⟨7, _⟩ => ⟨S3, .i32⟩
  | .hbm, ⟨8, _⟩ => ⟨S3, .i32⟩
  | .hbm, ⟨9, _⟩ => ⟨S3, .i32⟩
  | .hbm, ⟨10, _⟩ => ⟨S3x1, .i32⟩
  | .hbm, ⟨11, _⟩ => ⟨S8192x3, .f32⟩
  | .hbm, ⟨12, _⟩ => ⟨S8192x3, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S3x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .i1⟩
  | .hbm, ⟨45, _⟩ => ⟨S8192x1, .i32⟩
  | .hbm, ⟨46, _⟩ => ⟨S1x8192, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S8192x8192, .i1⟩
  | .hbm, ⟨51, _⟩ => ⟨S_, .f32⟩
  | .hbm, ⟨52, _⟩ => ⟨S_, .f32⟩
  | .hbm, ⟨53, _⟩ => ⟨S8192x8192, .f32⟩
  | .hbm, ⟨54, _⟩ => ⟨S8192x8192, .f32⟩
  | _, _ => ⟨S8192x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_call0_v0 : Ref sig .tc := ⟨.hbm, 52, rfl⟩
abbrev main_call0_v1 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S3x1_0 : S3.BroadcastsInDim S3x1 (![0] : Fin 1 → Fin S3x1.rank)
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  gather_S8192x6_S3x1_S8192x3_0_1_n_n_1_1_81921_wf : GatherDims.WF S8192x6 S3x1 S8192x3 [0] [1] [] [1] [] 1 ![8192, 1]
  dot_S8192x3_S3x8192_S8192x8192_1_0_0_1_n_n_wf : DotDims.WF S8192x3 S3x8192 S8192x8192 [1] [0] [0] [1] [] []

variable [Facts₀]

def gather_S8192x6_S3x1_S8192x3_0_1_n_n_1_1_81921 : GatherDims S8192x6 S3x1 S8192x3 where
  offsetDims := [0]
  collapsedSliceDims := [1]
  operandBatchingDims := []
  startIndicesBatchingDims := []
  startIndexMap := [1]
  indexVectorDim := 1
  sliceSizes := ![8192, 1]
  wf := gather_S8192x6_S3x1_S8192x3_0_1_n_n_1_1_81921_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.Bits.R0Runs.lean ====
/-
  The row-sum region (the program's first kernel region), at any contents `V` of the core's buffers when the region is
  entered: what its runs share. The grid is 8 × 8, point `t` at row block `t / 8` and column block `t % 8`. The
  body's first branch (the accumulator is zeroed) is taken at column block 0, its second (the accumulator is
  copied to the output block) at column block 7; so three cases meet the grid: the first column block (A), the middle
  ones (B), the last (C). Windows 0 and 1 read blocks of ONE array (rows `t / 8` and rows `t % 8` of the three
  coordinates); window 2 is the output, idle except at the last column block, where it is written back.
-/
import proofs.«153872_j12945031430844_1_alg».proof.Proof.Gen.Kernel.Launch
import proofs.«153872_j12945031430844_1_alg».proof.Proof.Gen.Kernel.Skeleton
import proofs.«153872_j12945031430844_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: between two
    fetches the window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions, decided over the grid -/

/-- The first branch's condition: the column block is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the column block is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1024x1 .f32 := Memref.whole cc0_scratch0
abbrev VS0_0 : View sig .tc .vmem S1024x1 .f32 := scM0_0.view

/-- The scoped buffers that are neither a staging buffer of this region nor the accumulator (the second region's
    staging buffers), each whole at some contents: they ride through the region untouched. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant as the launch hands it over: the accumulator at some contents, the untouched scoped buffers,
    the generator register at some state. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA restS0; rw [scopedRest0_eq]; simp only [scM0_0, owns_whole]; try rfl

end Cert.Kernel.Fr

end
-- ==== Proof.Bits.R0RunA.lean ====
/-
  The row-sum kernel's body in case A of its branches, run whole on its staging memrefs: the list of pieces each
  buffer it stores into ends with is found by the run itself.
-/
import proofs.«153872_j12945031430844_1_alg».proof.Proof.Bits.R0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case A: the first column block — the accumulator is zeroed, then added to; the output block is not touched. -/
noncomputable def kernelRun0_A (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨[], ?_, fun xi2 E K => ?run⟩
  case run =>
    simp only [cc0__rowsum_kernel_eq_skeleton]; unfold cc0__rowsum_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Bits.R0RunB.lean ====
/-
  The row-sum kernel's body in case B of its branches, run whole on its staging memrefs: the list of pieces each
  buffer it stores into ends with is found by the run itself.
-/
import proofs.«153872_j12945031430844_1_alg».proof.Proof.Bits.R0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case B: a middle column block — the accumulator, at what the point before left, is added to; the output block is not touched. -/
noncomputable def kernelRun0_B (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨[], ?_, fun xi2 E K => ?run⟩
  case run =>
    simp only [cc0__rowsum_kernel_eq_skeleton]; unfold cc0__rowsum_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Bits.R0RunC.lean ====
/-
  The row-sum kernel's body in case C of its branches, run whole on its staging memrefs: the list of pieces each
  buffer it stores into ends with is found by the run itself.
-/
import proofs.«153872_j12945031430844_1_alg».proof.Proof.Bits.R0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case C: the last column block — the accumulator is added to and then copied to the output block. -/
noncomputable def kernelRun0_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Fr

end
-- ==== Proof.Bits.R0Frame.lean ====
/-
  The row-sum region's frame data, at any contents `V` of the core's buffers when the region is entered: what the
  output block and the accumulator hold after each grid point (by recursion on the point: the accumulator is zeroed at a
  row block's first column block and added to at every column block; the output block receives it at the last), the
  region's invariant (the accumulator at what the point before left), the proof data, and the body obligation at every
  point. The two windows that read the coordinates' array hold it at the two halves of the full share.
-/
import proofs.«153872_j12945031430844_1_alg».proof.Proof.Bits.R0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output window's staging buffer: its pieces read back (none: the case stores nothing there; a placeholder nothing consults, the window being idle and not written back at the case's points). -/
def out0_A_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) : Vec F S1024x1 .f32 :=
  VO0_2.read (Elt F) (VO0_2.writes (Elt F) VO0_2.junk (kernelRun0_A c i arg2 harg2 arg3 harg3 arg4 harg4 arg5 harg5 hc0 hc1 x0 x1).1)

/-- Case A's stores into the accumulator tile it, so they cover it. -/
theorem scover0_A_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What case A leaves in the accumulator: its pieces read back. -/
def sout0_A_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) : Vec F S1024x1 .f32 :=
  VS0_0.read (Elt F) (VS0_0.writes (Elt F) VS0_0.junk (kernelRun0_A c i arg2 harg2 arg3 harg3 arg4 harg4 arg5 harg5 hc0 hc1 x0 x1).2.1)

/-- What case B leaves in the output window's staging buffer: its pieces read back (none: the case stores nothing there; a placeholder nothing consults, the window being idle and not written back at the case's points). -/
def out0_B_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- Case B's stores into the accumulator tile it, so they cover it. -/
theorem scover0_B_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What case B leaves in the accumulator: its pieces read back. -/
def sout0_B_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- Case C's one store into the output block tiles it, so it covers it. -/
theorem cover0_C_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What case C leaves in the output window's staging buffer: its pieces read back. -/
def out0_C_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- Case C's stores into the accumulator tile it, so they cover it. -/
theorem scover0_C_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What case C leaves in the accumulator: its pieces read back. -/
def sout0_C_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

section Region0
variable (V : (c : Dev nD) → (b : Ref sig .tc) → Buf (Elt F) ((c : Thread nD τ).loc b))

/-! ## What the output block and the accumulator hold after each point -/

/-- THE ACCUMULATION: after the body at position `n`, the output window's staging buffer and the accumulator — the case
    the column block selects, run at the point's memrefs and input blocks, over what the point before left in the accumulator. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left in it, the untouched scoped buffers, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · by_cases h1 : t.val % 8 = 7
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the launch handed over: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Region0

end Cert.Kernel.Fr

end
-- ==== Proof.Bits.R1Frame.lean ====
/-
  The main region (the program's second kernel region), at any contents `V` of the core's buffers when the region is
  entered. Its body loads five input blocks whole — rows `t / 8` and rows `t % 8` of the three coordinates, the graph
  ids of those rows as a column and of those columns as a row, and the row sums of rows `t / 8` — and stores
  the output block whole, once: one control case, nothing carried between points. What the output's staging buffer holds
  after the body is that one store's value, a pure function of the five blocks.
-/
import proofs.«153872_j12945031430844_1_alg».proof.Proof.Gen.Kernel.Launch
import proofs.«153872_j12945031430844_1_alg».proof.Proof.Gen.Kernel.Skeleton
import proofs.«153872_j12945031430844_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output's buffer -/

abbrev r1_0 : Rect S1024x3 := Rect.unit (s := S1024x3) ![0, 0] S1024x3.size inb_S1024x3_S1024x3_0_0
abbrev r1_1 : Rect S1024x1 := Rect.unit (s := S1024x1) ![0, 0] S1024x1.size inb_S1024x1_S1024x1_0_0
abbrev r1_2 : Rect S1x1024 := Rect.unit (s := S1x1024) ![0, 0] S1x1024.size inb_S1x1024_S1x1024_0_0
abbrev r1_3 : Rect S1024x1024 := Rect.unit (s := S1024x1024) ![0, 0] S1024x1024.size inb_S1024x1024_S1024x1024_0_0

/-- The output window's staging buffer after the body, from the five input blocks: its one store as a piece. -/
def out1_5 (x0 : Vec F S1024x3 .f32) (x1 : Vec F S1024x3 .f32) (x2 : Vec F S1024x1 .i32) (x3 : Vec F S1x1024 .i32) (x4 : Vec F S1024x1 .f32) : Vec F S1024x1024 .f32 :=
  View.canon [⟨r1_3, k1_pay1 (k1_pay2 (View.ld x0 r1_0) (View.ld x1 r1_0) (View.ld x4 r1_1)) (k1_pay3 (View.ld x2 r1_1) (View.ld x3 r1_2)) (k1_pay4 (View.ld x0 r1_0) (View.ld x1 r1_0) (View.ld x4 r1_1))⟩]

/-- Its one store tiles the buffer, so it covers it. -/
theorem cover1_5 (p0 : Vec F S1024x1024 .f32) (y : S1024x1024.Idx) :
    ∃ pc ∈ ([⟨r1_3, p0⟩] : List (View.Piece (Elt F) S1024x1024 .f32)), y ∈ pc.1.set :=
  View.cover_of_tiled [⟨r1_3, p0⟩] S1024x1024.size (by rfl) y

/-! ## The body's triple -/

set_option maxHeartbeats 4000000 in
theorem sound_kernel1 (c : Dev nD) (E : Set ℕ) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1024 .f32) (harg7 : arg7.IsWhole)
    (x0 : Vec F S1024x3 .f32) (x1 : Vec F S1024x3 .f32) (x2 : Vec F S1024x1 .i32) (x3 : Vec F S1x1024 .i32) (x4 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the main region on core `c`: the arrays as the region finds them; after the body at point
    `t` each input's buffer at its block and the output's at `out1_5` of the input blocks; the invariant the scoped
    buffers no window stages and the generator register, untouched; nothing owed. The two windows that read the
    coordinates' array hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.Bits.Shares.lean ====
/-
  How the buffers behind a region's windows are dealt to the windows and taken back. In both regions windows 0 and 1 read
  ONE array (the three coordinates): at a region's entry that buffer, held whole at the full share, is split into the two
  halves of the share, one per window; at its exit the two halves, which still hold the entry contents (an input window's
  array is never written), are joined again. Every other window's array is held at the full share throughout; an output
  window's array comes back at what its write-backs left.
-/
import proofs.«153872_j12945031430844_1_alg».proof.Proof.Bits.R0Frame
import proofs.«153872_j12945031430844_1_alg».proof.Proof.Bits.R1Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The row-sum region: arrays `main_v0` (twice) and `main_v3` -/

theorem arrBufs0_eq (c : Dev nD) :
    (Pipeline.arrBufs (Ix := Unit) (Name := ℕ) (U := UR sig nD τ) (Lvl := ℕ) spec0 c (V c) : sProp 𝕄)
      = iprop((((c : Thread nD τ).loc main_v0) ↦{fullShare} V c main_v0) ∗ (((c : Thread nD τ).loc main_v3) ↦{fullShare} V c main_v3)) := by
  unfold Pipeline.arrBufs
  rw [show Finset.univ.image (Pipeline.arrRef spec0) = {main_v0, main_v3} from by decide, bigSep_insert (by decide), bigSep_singleton]
  rfl

theorem share0_0 (c : Dev nD) : (dat0 V c).share 0 = fullShare.left := by
  unfold Dat.share; rw [if_neg (by decide)]; dsimp only [dat0]; rfl
theorem share0_1 (c : Dev nD) : (dat0 V c).share 1 = fullShare.right := by
  unfold Dat.share; rw [if_neg (by decide)]; dsimp only [dat0]; rfl
theorem share0_2 (c : Dev nD) : (dat0 V c).share 2 = fullShare := by
  unfold Dat.share; rw [if_pos (by decide)]

/-- The region's arrays, window by window: the coordinates' array at the two halves of the share, the output's whole. -/
theorem arrays0_eq (c : Dev nD) (Fn : (w : Fin cfg0.W) → Buf (Elt F) ((cfg0.win w).arr.view.loc (c : Thread nD τ))) :
    ((dat0 V c).arrays Fn : sProp 𝕄)
      = iprop((((c : Thread nD τ).loc main_v0) ↦{fullShare.left} Fn 0) ∗ (((c : Thread nD τ).loc main_v0) ↦{fullShare.right} Fn 1) ∗ (((c : Thread nD τ).loc main_v3) ↦{fullShare} Fn 2)) := by
  unfold Dat.arrays
  rw [bigSep_W0, (arr_whole0 0).set_eq_univ, (arr_whole0 2).set_eq_univ, share0_0, share0_1, share0_2]

theorem arrays0_entry (c : Dev nD) :
    (Pipeline.arrBufs (Ix := Unit) (Name := ℕ) (U := UR sig nD τ) (Lvl := ℕ) spec0 c (V c) : sProp 𝕄) ⊢ (dat0 V c).arrays ((dat0 V c).arrAt · 0) := by
  rw [arrBufs0_eq, arrays0_eq]
  rw [show (dat0 V c).arrAt 0 0 = V c main_v0 from A_eq0 V c 0, show (dat0 V c).arrAt 1 0 = V c main_v0 from A_eq0 V c 1,
    show (dat0 V c).arrAt 2 0 = V c main_v3 from A_eq0 V c 2]
  iintro ⟨H0, H3⟩
  ihave H' := (pointsTo_share (PosShare.mem_left_op_right fullShare)).1 $$ H0
  icases H' with ⟨Ha, Hb⟩
  isplitl [Ha]; · iexact Ha
  isplitl [Hb]; · iexact Hb
  iexact H3

theorem arrays0_exit (c : Dev nD) :
    (dat0 V c).arrays ((dat0 V c).arrAt · cfg0.N)
      ⊢ (iprop((((c : Thread nD τ).loc main_v0) ↦{fullShare} V c main_v0) ∗ (((c : Thread nD τ).loc main_v3) ↦{fullShare} (dat0 V c).arrAt 2 cfg0.N)) : sProp 𝕄) := by
  rw [arrays0_eq]
  rw [show (dat0 V c).arrAt 0 cfg0.N = V c main_v0 from ((dat0 V c).arrAt_in 0 rfl _).trans (A_eq0 V c 0),
    show (dat0 V c).arrAt 1 cfg0.N = V c main_v0 from ((dat0 V c).arrAt_in 1 rfl _).trans (A_eq0 V c 1)]
  iintro ⟨Ha, Hb, H3⟩
  isplitl [Ha Hb]
  · iapply (pointsTo_share (PosShare.mem_left_op_right fullShare)).2
    isplitl [Ha]; · iexact Ha
    iexact Hb
  iexact H3

/-! ## The main region: arrays `main_v0` (twice), `main_v1`, `main_v2`, `main_v3` and `main_v4` -/

theorem arrBufs1_eq (c : Dev nD) :
    (Pipeline.arrBufs (Ix := Unit) (Name := ℕ) (U := UR sig nD τ) (Lvl := ℕ) spec1 c (V c) : sProp 𝕄)
      = iprop((((c : Thread nD τ).loc main_v0) ↦{fullShare} V c main_v0) ∗ (((c : Thread nD τ).loc main_v1) ↦{fullShare} V c main_v1) ∗ (((c : Thread nD τ).loc main_v2) ↦{fullShare} V c main_v2) ∗ (((c : Thread nD τ).loc main_v3) ↦{fullShare} V c main_v3) ∗ (((c : Thread nD τ).loc main_v4) ↦{fullShare} V c main_v4)) := by
  unfold Pipeline.arrBufs
  rw [show Finset.univ.image (Pipeline.arrRef spec1) = {main_v0, main_v1, main_v2, main_v3, main_v4} from by decide,
    bigSep_insert (by decide), bigSep_insert (by decide), bigSep_insert (by decide), bigSep_insert (by decide), bigSep_singleton]
  rfl

theorem share1_0 (c : Dev nD) : (dat1 V c).share 0 = fullShare.left := by
  unfold Dat.share; rw [if_neg (by decide)]; dsimp only [dat1]; rfl
theorem share1_1 (c : Dev nD) : (dat1 V c).share 1 = fullShare.right := by
  unfold Dat.share; rw [if_neg (by decide)]; dsimp only [dat1]; rfl
theorem share1_2 (c : Dev nD) : (dat1 V c).share 2 = fullShare := by
  unfold Dat.share; rw [if_neg (by decide)]; dsimp only [dat1]; rfl
theorem share1_3 (c : Dev nD) : (dat1 V c).share 3 = fullShare := by
  unfold Dat.share; rw [if_neg (by decide)]; dsimp only [dat1]; rfl
theorem share1_4 (c : Dev nD) : (dat1 V c).share 4 = fullShare := by
  unfold Dat.share; rw [if_neg (by decide)]; dsimp only [dat1]; rfl
theorem share1_5 (c : Dev nD) : (dat1 V c).share 5 = fullShare := by
  unfold Dat.share; rw [if_pos (by decide)]

theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v0) ↦{fullShare.left} Fn 0) ∗ (((c : Thread nD τ).loc main_v0) ↦{fullShare.right} Fn 1) ∗ (((c : Thread nD τ).loc main_v1) ↦{fullShare} Fn 2) ∗ (((c : Thread nD τ).loc main_v2) ↦{fullShare} Fn 3) ∗ (((c : Thread nD τ).loc main_v3) ↦{fullShare} Fn 4) ∗ (((c : Thread nD τ).loc main_v4) ↦{fullShare} Fn 5)) := by
  unfold Dat.arrays
  rw [bigSep_W1, (arr_whole1 0).set_eq_univ, (arr_whole1 2).set_eq_univ, (arr_whole1 3).set_eq_univ, (arr_whole1 4).set_eq_univ, (arr_whole1 5).set_eq_univ,
    share1_0, share1_1, share1_2, share1_3, share1_4, share1_5]

theorem arrays1_entry (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_eq]
  rw [show (dat1 V c).arrAt 0 0 = V c main_v0 from A_eq1 V c 0, show (dat1 V c).arrAt 1 0 = V c main_v0 from A_eq1 V c 1,
    show (dat1 V c).arrAt 2 0 = V c main_v1 from A_eq1 V c 2, show (dat1 V c).arrAt 3 0 = V c main_v2 from A_eq1 V c 3,
    show (dat1 V c).arrAt 4 0 = V c main_v3 from A_eq1 V c 4, show (dat1 V c).arrAt 5 0 = V c main_v4 from A_eq1 V c 5]
  iintro ⟨H0, H1, H2, H3, H4⟩
  ihave H' := (pointsTo_share (PosShare.mem_left_op_right fullShare)).1 $$ H0
  icases H' with ⟨Ha, Hb⟩
  isplitl [Ha]; · iexact Ha
  isplitl [Hb]; · iexact Hb
  isplitl [H1]; · iexact H1
  isplitl [H2]; · iexact H2
  isplitl [H3]; · iexact H3
  iexact H4

theorem arrays1_exit (c : Dev nD) :
    (dat1 V c).arrays ((dat1 V c).arrAt · cfg1.N)
      ⊢ (iprop((((c : Thread nD τ).loc main_v0) ↦{fullShare} V c main_v0) ∗ (((c : Thread nD τ).loc main_v1) ↦{fullShare} V c main_v1) ∗ (((c : Thread nD τ).loc main_v2) ↦{fullShare} V c main_v2) ∗ (((c : Thread nD τ).loc main_v3) ↦{fullShare} V c main_v3) ∗ (((c : Thread nD τ).loc main_v4) ↦{fullShare} (dat1 V c).arrAt 5 cfg1.N)) : sProp 𝕄) := by
  rw [arrays1_eq]
  rw [show (dat1 V c).arrAt 0 cfg1.N = V c main_v0 from ((dat1 V c).arrAt_in 0 rfl _).trans (A_eq1 V c 0),
    show (dat1 V c).arrAt 1 cfg1.N = V c main_v0 from ((dat1 V c).arrAt_in 1 rfl _).trans (A_eq1 V c 1),
    show (dat1 V c).arrAt 2 cfg1.N = V c main_v1 from ((dat1 V c).arrAt_in 2 rfl _).trans (A_eq1 V c 2),
    show (dat1 V c).arrAt 3 cfg1.N = V c main_v2 from ((dat1 V c).arrAt_in 3 rfl _).trans (A_eq1 V c 3),
    show (dat1 V c).arrAt 4 cfg1.N = V c main_v3 from ((dat1 V c).arrAt_in 4 rfl _).trans (A_eq1 V c 4)]
  iintro ⟨Ha, Hb, H1, H2, H3, H4⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  iexact H4

end

end Cert.Kernel.Fr

end
-- ==== Proof.Bits.Run.lean ====
/-
  The program's run: three host operations (the three coordinates sliced out of `x`; the graph ids reshaped to a column
  and to a row), the row-sum region, the main region. Between two of these every unscoped buffer of the core is held
  at known contents: the launch memory; then the host operations' results; then the row sums' array at what the
  first region's write-backs left; then the result array at what the second region's write-backs left. Every weakly
  fair execution terminates, and in every final memory the result array holds what the second region left and both
  argument arrays hold what they were launched with (no operation and no region writes them).
-/
import proofs.«153872_j12945031430844_1_alg».proof.Proof.Bits.Shares
import proofs.«153872_j12945031430844_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between the program's items -/

/-- The row-sum region's entry contents: the launch memory after the three host operations. -/
abbrev E1 (c : Dev nD) (b : Ref sig .tc) : Buf (Elt F) ((c : Thread nD τ).loc b) := Gen.V1 m c b
/-- After the row-sum region: the row sums' array at what the region's write-backs left, every other buffer as before. -/
def Y2 (c : Dev nD) : Valuation τ sig (Elt F) :=
  Function.update (Gen.V1 m c) main_v3 ((dat0 (E1 m) c).arrAt 2 cfg0.N : Buf (Elt F) ((c : Thread nD τ).loc main_v3))
/-- The main region's entry contents. -/
abbrev E2 (c : Dev nD) (b : Ref sig .tc) : Buf (Elt F) ((c : Thread nD τ).loc b) := Y2 m c b
/-- After the main region: the result array at what the region's write-backs left. -/
def Y3 (c : Dev nD) : Valuation τ sig (Elt F) :=
  Function.update (Y2 m c) main_v4 ((dat1 (E2 m) c).arrAt 5 cfg1.N : Buf (Elt F) ((c : Thread nD τ).loc main_v4))
abbrev E3 (c : Dev nD) (b : Ref sig .tc) : Buf (Elt F) ((c : Thread nD τ).loc b) := Y3 m c b

theorem Y2_v3 (c : Dev nD) : E2 m c main_v3 = (dat0 (E1 m) c).arrAt 2 cfg0.N := by
  unfold E2 Y2; exact Function.update_self ..
theorem Y2_of (c : Dev nD) (r : Ref sig .tc) (h : r ≠ main_v3) : E2 m c r = E1 m c r := by
  unfold E2 Y2; exact Function.update_of_ne (StableHlo.devRef_ne_of_ne h : (Proc.devRef .tc r : DevRef τ sig) ≠ Proc.devRef .tc main_v3) _ _
theorem Y3_v4 (c : Dev nD) : E3 m c main_v4 = (dat1 (E2 m) c).arrAt 5 cfg1.N := by
  unfold E3 Y3; exact Function.update_self ..
theorem Y3_of (c : Dev nD) (r : Ref sig .tc) (h : r ≠ main_v4) : E3 m c r = E2 m c r := by
  unfold E3 Y3; exact Function.update_of_ne (StableHlo.devRef_ne_of_ne h : (Proc.devRef .tc r : DevRef τ sig) ≠ Proc.devRef .tc main_v4) _ _

/-- The argument arrays reach the end as launched. -/
theorem Y3_main_arg0 (c : Dev nD) : E3 m c main_arg0 = m ((c : Thread nD τ).loc main_arg0) :=
  (Y3_of m c main_arg0 (by decide)).trans <| (Y2_of m c main_arg0 (by decide)).trans <| (Gen.V1_of m c main_arg0 (by decide)).trans rfl
theorem Y3_main_arg1 (c : Dev nD) : E3 m c main_arg1 = m ((c : Thread nD τ).loc main_arg1) :=
  (Y3_of m c main_arg1 (by decide)).trans <| (Y2_of m c main_arg1 (by decide)).trans <| (Gen.V1_of m c main_arg1 (by decide)).trans rfl

/-! ## A region's arrays out of the unscoped buffers, and back -/

theorem rest0_eq (c : Dev nD) :
    (Pipeline.unscopedRest (Ix := Unit) (Name := ℕ) (U := UR sig nD τ) (Lvl := ℕ) spec0 c (E2 m c) : sProp 𝕄) = Pipeline.unscopedRest spec0 c (E1 m c) := by
  unfold Pipeline.unscopedRest
  exact bigSep_congr fun b hb => by
    have hb' : b ≠ main_v3 := fun e => (Finset.mem_sdiff.mp hb).2 (Finset.mem_image.mpr ⟨2, Finset.mem_univ _, e.symm⟩)
    rw [Y2_of m c b hb']
theorem rest1_eq (c : Dev nD) :
    (Pipeline.unscopedRest (Ix := Unit) (Name := ℕ) (U := UR sig nD τ) (Lvl := ℕ) spec1 c (E3 m c) : sProp 𝕄) = Pipeline.unscopedRest spec1 c (E2 m c) := by
  unfold Pipeline.unscopedRest
  exact bigSep_congr fun b hb => by
    have hb' : b ≠ main_v4 := fun e => (Finset.mem_sdiff.mp hb).2 (Finset.mem_image.mpr ⟨5, Finset.mem_univ _, e.symm⟩)
    rw [Y3_of m c b hb']

theorem hsplit0 (c : Dev nD) :
    (StableHlo.held (c : Thread nD τ) (Pipeline.ucRefs τ sig) (Gen.V1 m c) : sProp 𝕄)
      ⊢ iprop((dat0 (E1 m) c).arrays ((dat0 (E1 m) c).arrAt · 0) ∗ Pipeline.unscopedRest spec0 c (E1 m c)) := by
  rw [← Pipeline.unscopedBufs_held (Ix := Unit) (Name := ℕ) (U := UR sig nD τ) (Lvl := ℕ) c (Gen.V1 m c),
    Pipeline.unscopedBufs_split₀ cfgs (0 : Fin 2) winFacts₀0.arr_unscoped c (E1 m c)]
  exact sep_mono (arrays0_entry (E1 m) c) .rfl

theorem hjoin0 (c : Dev nD) :
    iprop((dat0 (E1 m) c).arrays ((dat0 (E1 m) c).arrAt · cfg0.N) ∗ Pipeline.unscopedRest spec0 c (E1 m c))
      ⊢ (StableHlo.held (c : Thread nD τ) (Pipeline.ucRefs τ sig) (Y2 m c) : sProp 𝕄) := by
  rw [← Pipeline.unscopedBufs_held (Ix := Unit) (Name := ℕ) (U := UR sig nD τ) (Lvl := ℕ) c (Y2 m c),
    Pipeline.unscopedBufs_split₀ cfgs (0 : Fin 2) winFacts₀0.arr_unscoped c (E2 m c)]
  change _ ⊢ iprop(Pipeline.arrBufs spec0 c (E2 m c) ∗ Pipeline.unscopedRest spec0 c (E2 m c))
  rw [arrBufs0_eq (E2 m) c, rest0_eq m c, Y2_of m c main_v0 (by decide), Y2_v3]
  exact sep_mono (arrays0_exit (E1 m) c) .rfl

theorem hsplit1 (c : Dev nD) :
    (StableHlo.held (c : Thread nD τ) (Pipeline.ucRefs τ sig) (Y2 m c) : sProp 𝕄)
      ⊢ iprop((dat1 (E2 m) c).arrays ((dat1 (E2 m) c).arrAt · 0) ∗ Pipeline.unscopedRest spec1 c (E2 m c)) := by
  rw [← Pipeline.unscopedBufs_held (Ix := Unit) (Name := ℕ) (U := UR sig nD τ) (Lvl := ℕ) c (Y2 m c),
    Pipeline.unscopedBufs_split₀ cfgs (1 : Fin 2) winFacts₀1.arr_unscoped c (E2 m c)]
  exact sep_mono (arrays1_entry (E2 m) c) .rfl

theorem hjoin1 (c : Dev nD) :
    iprop((dat1 (E2 m) c).arrays ((dat1 (E2 m) c).arrAt · cfg1.N) ∗ Pipeline.unscopedRest spec1 c (E2 m c))
      ⊢ (StableHlo.held (c : Thread nD τ) (Pipeline.ucRefs τ sig) (Y3 m c) : sProp 𝕄) := by
  rw [← Pipeline.unscopedBufs_held (Ix := Unit) (Name := ℕ) (U := UR sig nD τ) (Lvl := ℕ) c (Y3 m c),
    Pipeline.unscopedBufs_split₀ cfgs (1 : Fin 2) winFacts₀1.arr_unscoped c (E3 m c)]
  change _ ⊢ iprop(Pipeline.arrBufs spec1 c (E3 m c) ∗ Pipeline.unscopedRest spec1 c (E3 m c))
  rw [arrBufs1_eq (E3 m) c, rest1_eq m c, Y3_of m c main_v0 (by decide), Y3_of m c main_v1 (by decide), Y3_of m c main_v2 (by decide), Y3_of m c main_v3 (by decide), Y3_v4]
  exact sep_mono (arrays1_exit (E2 m) c) .rfl

/-! ## The proof data family and the thread state -/

/-- Each region's proof data at its entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Y3 m c) ∗ ∃ r, prngReg c r)

/-! ## The regions as segments -/

set_option backward.isDefEq.respectTransparency.types false in
/-- Region 0 over the thread state: entered from every unscoped buffer at the contents before it, left at the contents
    after it; its arrays split out of the unscoped buffers and put back; the generator register into the region's
    invariant and out; nothing owed; no semaphore of the kernel's own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Y2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    iintro ⟨⟨Hub, Hp, HO⟩, -, -⟩
    ihave H := (hsplit0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c); unfold Pipeline.ΦA
    iintro ⟨Hp, -, Hr⟩
    isplitl [Hr]; · iexact Hr
    iexact Hp
  hout c := by
    rw [Pipeline.ownSems0_none]
    refine (hout0 (E1 m) c).trans ?_; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hjoin0 m c); isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register into the region's
    invariant and out; nothing owed; no semaphore of the kernel's own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Y2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := (hsplit1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (hjoin1 m c); isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting; in every final
    memory the result array holds what the main region's write-backs left, and the argument arrays are as launched. -/
theorem run_main (ρ : Dev nD → PrngReg) : θ_run defs (onTc (τ := τ) (main (F := F))) ⟨m, fun _ => 0, ρ⟩ (fun r => ∀ c : Dev nD,
      r.2.mem ((c.tc : Thread nD τ).loc main_v4) = (dat1 (E2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y3 m c b)
    (hfin := fun c s' => by
      iintro ⟨⟨Hh, -⟩, HSI⟩
      unfold StableHlo.held
      imodintro
      iapply (pointsTo_read_all (Pipeline.ucRefs τ sig) (fun b => (((c : Thread nD τ)).1, b)) (Y3 m c) s')
      isplitl [Hh] <;> iassumption)
    (hQ := fun s h c =>
      ⟨(h c _ (mem_uc main_v4 (by decide))).trans (Y3_v4 m c),
       (h c _ (mem_uc main_arg0 (by decide))).trans (Y3_main_arg0 m c),
       (h c _ (mem_uc main_arg1 (by decide))).trans (Y3_main_arg1 m c)⟩)

/-- THE FRAME: the run with the result array's contents forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Fr

end
-- ==== Proof.R0Runs.lean ====
/-
  The row-sum region (the program's first kernel region), at any contents `V` of the core's buffers when the region is
  entered: what its runs share. The grid is 8 × 8, point `t` at row block `t / 8` and column block `t % 8`. The
  body's first branch (the accumulator is zeroed) is taken at column block 0, its second (the accumulator is
  copied to the output block) at column block 7; so three cases meet the grid: the first column block (A), the middle
  ones (B), the last (C). Windows 0 and 1 read blocks of ONE array (rows `t / 8` and rows `t % 8` of the three
  coordinates); window 2 is the output, idle except at the last column block, where it is written back.
-/
import proofs.«153872_j12945031430844_1_alg».proof.Proof.Gen.KernelIdeal.Launch
import proofs.«153872_j12945031430844_1_alg».proof.Proof.Gen.KernelIdeal.Skeleton
import proofs.«153872_j12945031430844_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: between two
    fetches the window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions, decided over the grid -/

/-- The first branch's condition: the column block is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the column block is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1024x1 .f32 := Memref.whole cc0_scratch0
abbrev VS0_0 : View sig .tc .vmem S1024x1 .f32 := scM0_0.view

/-- The scoped buffers that are neither a staging buffer of this region nor the accumulator (the second region's
    staging buffers), each whole at some contents: they ride through the region untouched. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant as the launch hands it over: the accumulator at some contents, the untouched scoped buffers,
    the generator register at some state. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA restS0; rw [scopedRest0_eq]; simp only [scM0_0, owns_whole]; try rfl

end Cert.KernelIdeal.Fr

end
-- ==== Proof.R0RunA.lean ====
/-
  The row-sum kernel's body in case A of its branches, run whole on its staging memrefs: the list of pieces each
  buffer it stores into ends with is found by the run itself.
-/
import proofs.«153872_j12945031430844_1_alg».proof.Proof.R0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case A: the first column block — the accumulator is zeroed, then added to; the output block is not touched. -/
noncomputable def kernelRun0_A (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨[], ?_, fun xi2 E K => ?run⟩
  case run =>
    simp only [cc0__rowsum_kernel_eq_skeleton]; unfold cc0__rowsum_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.R0RunB.lean ====
/-
  The row-sum kernel's body in case B of its branches, run whole on its staging memrefs: the list of pieces each
  buffer it stores into ends with is found by the run itself.
-/
import proofs.«153872_j12945031430844_1_alg».proof.Proof.R0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case B: a middle column block — the accumulator, at what the point before left, is added to; the output block is not touched. -/
noncomputable def kernelRun0_B (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨[], ?_, fun xi2 E K => ?run⟩
  case run =>
    simp only [cc0__rowsum_kernel_eq_skeleton]; unfold cc0__rowsum_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.R0RunC.lean ====
/-
  The row-sum kernel's body in case C of its branches, run whole on its staging memrefs: the list of pieces each
  buffer it stores into ends with is found by the run itself.
-/
import proofs.«153872_j12945031430844_1_alg».proof.Proof.R0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case C: the last column block — the accumulator is added to and then copied to the output block. -/
noncomputable def kernelRun0_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Fr

end
-- ==== Proof.R0Frame.lean ====
/-
  The row-sum region's frame data, at any contents `V` of the core's buffers when the region is entered: what the
  output block and the accumulator hold after each grid point (by recursion on the point: the accumulator is zeroed at a
  row block's first column block and added to at every column block; the output block receives it at the last), the
  region's invariant (the accumulator at what the point before left), the proof data, and the body obligation at every
  point. The two windows that read the coordinates' array hold it at the two halves of the full share.
-/
import proofs.«153872_j12945031430844_1_alg».proof.Proof.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output window's staging buffer: its pieces read back (none: the case stores nothing there; a placeholder nothing consults, the window being idle and not written back at the case's points). -/
def out0_A_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) : Vec F S1024x1 .f32 :=
  VO0_2.read (Elt F) (VO0_2.writes (Elt F) VO0_2.junk (kernelRun0_A c i arg2 harg2 arg3 harg3 arg4 harg4 arg5 harg5 hc0 hc1 x0 x1).1)

/-- Case A's stores into the accumulator tile it, so they cover it. -/
theorem scover0_A_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What case A leaves in the accumulator: its pieces read back. -/
def sout0_A_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x3 .f32) (x1 : Vec F S1024x3 .f32) : Vec F S1024x1 .f32 :=
  VS0_0.read (Elt F) (VS0_0.writes (Elt F) VS0_0.junk (kernelRun0_A c i arg2 harg2 arg3 harg3 arg4 harg4 arg5 harg5 hc0 hc1 x0 x1).2.1)

/-- What case B leaves in the output window's staging buffer: its pieces read back (none: the case stores nothing there; a placeholder nothing consults, the window being idle and not written back at the case's points). -/
def out0_B_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- Case B's stores into the accumulator tile it, so they cover it. -/
theorem scover0_B_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What case B leaves in the accumulator: its pieces read back. -/
def sout0_B_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x3 .f32) (x1 : Vec F S1024x3 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- Case C's one store into the output block tiles it, so it covers it. -/
theorem cover0_C_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What case C leaves in the output window's staging buffer: its pieces read back. -/
def out0_C_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- Case C's stores into the accumulator tile it, so they cover it. -/
theorem scover0_C_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What case C leaves in the accumulator: its pieces read back. -/
def sout0_C_0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x3 .f32) (x1 : Vec F S1024x3 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

section Region0
variable (V : (c : Dev nD) → (b : Ref sig .tc) → Buf (Elt F) ((c : Thread nD τ).loc b))

/-! ## What the output block and the accumulator hold after each point -/

/-- THE ACCUMULATION: after the body at position `n`, the output window's staging buffer and the accumulator — the case
    the column block selects, run at the point's memrefs and input blocks, over what the point before left in the accumulator. -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left in it, the untouched scoped buffers, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · by_cases h1 : t.val % 8 = 7
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the launch handed over: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Region0

end Cert.KernelIdeal.Fr

end
-- ==== Proof.R1Frame.lean ====
/-
  The main region (the program's second kernel region), at any contents `V` of the core's buffers when the region is
  entered. Its body loads five input blocks whole — rows `t / 8` and rows `t % 8` of the three coordinates, the graph
  ids of those rows as a column and of those columns as a row, and the row sums of rows `t / 8` — and stores
  the output block whole, once: one control case, nothing carried between points. What the output's staging buffer holds
  after the body is that one store's value, a pure function of the five blocks.
-/
import proofs.«153872_j12945031430844_1_alg».proof.Proof.Gen.KernelIdeal.Launch
import proofs.«153872_j12945031430844_1_alg».proof.Proof.Gen.KernelIdeal.Skeleton
import proofs.«153872_j12945031430844_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output's buffer -/

abbrev r1_0 : Rect S1024x3 := Rect.unit (s := S1024x3) ![0, 0] S1024x3.size inb_S1024x3_S1024x3_0_0
abbrev r1_1 : Rect S1024x1 := Rect.unit (s := S1024x1) ![0, 0] S1024x1.size inb_S1024x1_S1024x1_0_0
abbrev r1_2 : Rect S1x1024 := Rect.unit (s := S1x1024) ![0, 0] S1x1024.size inb_S1x1024_S1x1024_0_0
abbrev r1_3 : Rect S1024x1024 := Rect.unit (s := S1024x1024) ![0, 0] S1024x1024.size inb_S1024x1024_S1024x1024_0_0

/-- The output window's staging buffer after the body, from the five input blocks: its one store as a piece. -/
def out1_5 (x0 : Vec F S1024x3 .f32) (x1 : Vec F S1024x3 .f32) (x2 : Vec F S1024x1 .i32) (x3 : Vec F S1x1024 .i32) (x4 : Vec F S1024x1 .f32) : Vec F S1024x1024 .f32 :=
  View.canon [⟨r1_3, k1_pay1 (k1_pay2 (View.ld x0 r1_0) (View.ld x1 r1_0) (View.ld x4 r1_1)) (k1_pay3 (View.ld x2 r1_1) (View.ld x3 r1_2)) (k1_pay4 (View.ld x0 r1_0) (View.ld x1 r1_0) (View.ld x4 r1_1))⟩]

/-- Its one store tiles the buffer, so it covers it. -/
theorem cover1_5 (p0 : Vec F S1024x1024 .f32) (y : S1024x1024.Idx) :
    ∃ pc ∈ ([⟨r1_3, p0⟩] : List (View.Piece (Elt F) S1024x1024 .f32)), y ∈ pc.1.set :=
  View.cover_of_tiled [⟨r1_3, p0⟩] S1024x1024.size (by rfl) y

/-! ## The body's triple -/

set_option maxHeartbeats 4000000 in
theorem sound_kernel1 (c : Dev nD) (E : Set ℕ) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1024 .f32) (harg7 : arg7.IsWhole)
    (x0 : Vec F S1024x3 .f32) (x1 : Vec F S1024x3 .f32) (x2 : Vec F S1024x1 .i32) (x3 : Vec F S1x1024 .i32) (x4 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the main region on core `c`: the arrays as the region finds them; after the body at point
    `t` each input's buffer at its block and the output's at `out1_5` of the input blocks; the invariant the scoped
    buffers no window stages and the generator register, untouched; nothing owed. The two windows that read the
    coordinates' array hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.Shares.lean ====
/-
  How the buffers behind a region's windows are dealt to the windows and taken back. In both regions windows 0 and 1 read
  ONE array (the three coordinates): at a region's entry that buffer, held whole at the full share, is split into the two
  halves of the share, one per window; at its exit the two halves, which still hold the entry contents (an input window's
  array is never written), are joined again. Every other window's array is held at the full share throughout; an output
  window's array comes back at what its write-backs left.
-/
import proofs.«153872_j12945031430844_1_alg».proof.Proof.R0Frame
import proofs.«153872_j12945031430844_1_alg».proof.Proof.R1Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The row-sum region: arrays `main_v0` (twice) and `main_v3` -/

theorem arrBufs0_eq (c : Dev nD) :
    (Pipeline.arrBufs (Ix := Unit) (Name := ℕ) (U := UR sig nD τ) (Lvl := ℕ) spec0 c (V c) : sProp 𝕄)
      = iprop((((c : Thread nD τ).loc main_v0) ↦{fullShare} V c main_v0) ∗ (((c : Thread nD τ).loc main_v3) ↦{fullShare} V c main_v3)) := by
  unfold Pipeline.arrBufs
  rw [show Finset.univ.image (Pipeline.arrRef spec0) = {main_v0, main_v3} from by decide, bigSep_insert (by decide), bigSep_singleton]
  rfl

theorem share0_0 (c : Dev nD) : (dat0 V c).share 0 = fullShare.left := by
  unfold Dat.share; rw [if_neg (by decide)]; dsimp only [dat0]; rfl
theorem share0_1 (c : Dev nD) : (dat0 V c).share 1 = fullShare.right := by
  unfold Dat.share; rw [if_neg (by decide)]; dsimp only [dat0]; rfl
theorem share0_2 (c : Dev nD) : (dat0 V c).share 2 = fullShare := by
  unfold Dat.share; rw [if_pos (by decide)]

/-- The region's arrays, window by window: the coordinates' array at the two halves of the share, the output's whole. -/
theorem arrays0_eq (c : Dev nD) (Fn : (w : Fin cfg0.W) → Buf (Elt F) ((cfg0.win w).arr.view.loc (c : Thread nD τ))) :
    ((dat0 V c).arrays Fn : sProp 𝕄)
      = iprop((((c : Thread nD τ).loc main_v0) ↦{fullShare.left} Fn 0) ∗ (((c : Thread nD τ).loc main_v0) ↦{fullShare.right} Fn 1) ∗ (((c : Thread nD τ).loc main_v3) ↦{fullShare} Fn 2)) := by
  unfold Dat.arrays
  rw [bigSep_W0, (arr_whole0 0).set_eq_univ, (arr_whole0 2).set_eq_univ, share0_0, share0_1, share0_2]

theorem arrays0_entry (c : Dev nD) :
    (Pipeline.arrBufs (Ix := Unit) (Name := ℕ) (U := UR sig nD τ) (Lvl := ℕ) spec0 c (V c) : sProp 𝕄) ⊢ (dat0 V c).arrays ((dat0 V c).arrAt · 0) := by
  rw [arrBufs0_eq, arrays0_eq]
  rw [show (dat0 V c).arrAt 0 0 = V c main_v0 from A_eq0 V c 0, show (dat0 V c).arrAt 1 0 = V c main_v0 from A_eq0 V c 1,
    show (dat0 V c).arrAt 2 0 = V c main_v3 from A_eq0 V c 2]
  iintro ⟨H0, H3⟩
  ihave H' := (pointsTo_share (PosShare.mem_left_op_right fullShare)).1 $$ H0
  icases H' with ⟨Ha, Hb⟩
  isplitl [Ha]; · iexact Ha
  isplitl [Hb]; · iexact Hb
  iexact H3

theorem arrays0_exit (c : Dev nD) :
    (dat0 V c).arrays ((dat0 V c).arrAt · cfg0.N)
      ⊢ (iprop((((c : Thread nD τ).loc main_v0) ↦{fullShare} V c main_v0) ∗ (((c : Thread nD τ).loc main_v3) ↦{fullShare} (dat0 V c).arrAt 2 cfg0.N)) : sProp 𝕄) := by
  rw [arrays0_eq]
  rw [show (dat0 V c).arrAt 0 cfg0.N = V c main_v0 from ((dat0 V c).arrAt_in 0 rfl _).trans (A_eq0 V c 0),
    show (dat0 V c).arrAt 1 cfg0.N = V c main_v0 from ((dat0 V c).arrAt_in 1 rfl _).trans (A_eq0 V c 1)]
  iintro ⟨Ha, Hb, H3⟩
  isplitl [Ha Hb]
  · iapply (pointsTo_share (PosShare.mem_left_op_right fullShare)).2
    isplitl [Ha]; · iexact Ha
    iexact Hb
  iexact H3

/-! ## The main region: arrays `main_v0` (twice), `main_v1`, `main_v2`, `main_v3` and `main_v4` -/

theorem arrBufs1_eq (c : Dev nD) :
    (Pipeline.arrBufs (Ix := Unit) (Name := ℕ) (U := UR sig nD τ) (Lvl := ℕ) spec1 c (V c) : sProp 𝕄)
      = iprop((((c : Thread nD τ).loc main_v0) ↦{fullShare} V c main_v0) ∗ (((c : Thread nD τ).loc main_v1) ↦{fullShare} V c main_v1) ∗ (((c : Thread nD τ).loc main_v2) ↦{fullShare} V c main_v2) ∗ (((c : Thread nD τ).loc main_v3) ↦{fullShare} V c main_v3) ∗ (((c : Thread nD τ).loc main_v4) ↦{fullShare} V c main_v4)) := by
  unfold Pipeline.arrBufs
  rw [show Finset.univ.image (Pipeline.arrRef spec1) = {main_v0, main_v1, main_v2, main_v3, main_v4} from by decide,
    bigSep_insert (by decide), bigSep_insert (by decide), bigSep_insert (by decide), bigSep_insert (by decide), bigSep_singleton]
  rfl

theorem share1_0 (c : Dev nD) : (dat1 V c).share 0 = fullShare.left := by
  unfold Dat.share; rw [if_neg (by decide)]; dsimp only [dat1]; rfl
theorem share1_1 (c : Dev nD) : (dat1 V c).share 1 = fullShare.right := by
  unfold Dat.share; rw [if_neg (by decide)]; dsimp only [dat1]; rfl
theorem share1_2 (c : Dev nD) : (dat1 V c).share 2 = fullShare := by
  unfold Dat.share; rw [if_neg (by decide)]; dsimp only [dat1]; rfl
theorem share1_3 (c : Dev nD) : (dat1 V c).share 3 = fullShare := by
  unfold Dat.share; rw [if_neg (by decide)]; dsimp only [dat1]; rfl
theorem share1_4 (c : Dev nD) : (dat1 V c).share 4 = fullShare := by
  unfold Dat.share; rw [if_neg (by decide)]; dsimp only [dat1]; rfl
theorem share1_5 (c : Dev nD) : (dat1 V c).share 5 = fullShare := by
  unfold Dat.share; rw [if_pos (by decide)]

theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v0) ↦{fullShare.left} Fn 0) ∗ (((c : Thread nD τ).loc main_v0) ↦{fullShare.right} Fn 1) ∗ (((c : Thread nD τ).loc main_v1) ↦{fullShare} Fn 2) ∗ (((c : Thread nD τ).loc main_v2) ↦{fullShare} Fn 3) ∗ (((c : Thread nD τ).loc main_v3) ↦{fullShare} Fn 4) ∗ (((c : Thread nD τ).loc main_v4) ↦{fullShare} Fn 5)) := by
  unfold Dat.arrays
  rw [bigSep_W1, (arr_whole1 0).set_eq_univ, (arr_whole1 2).set_eq_univ, (arr_whole1 3).set_eq_univ, (arr_whole1 4).set_eq_univ, (arr_whole1 5).set_eq_univ,
    share1_0, share1_1, share1_2, share1_3, share1_4, share1_5]

theorem arrays1_entry (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_eq]
  rw [show (dat1 V c).arrAt 0 0 = V c main_v0 from A_eq1 V c 0, show (dat1 V c).arrAt 1 0 = V c main_v0 from A_eq1 V c 1,
    show (dat1 V c).arrAt 2 0 = V c main_v1 from A_eq1 V c 2, show (dat1 V c).arrAt 3 0 = V c main_v2 from A_eq1 V c 3,
    show (dat1 V c).arrAt 4 0 = V c main_v3 from A_eq1 V c 4, show (dat1 V c).arrAt 5 0 = V c main_v4 from A_eq1 V c 5]
  iintro ⟨H0, H1, H2, H3, H4⟩
  ihave H' := (pointsTo_share (PosShare.mem_left_op_right fullShare)).1 $$ H0
  icases H' with ⟨Ha, Hb⟩
  isplitl [Ha]; · iexact Ha
  isplitl [Hb]; · iexact Hb
  isplitl [H1]; · iexact H1
  isplitl [H2]; · iexact H2
  isplitl [H3]; · iexact H3
  iexact H4

theorem arrays1_exit (c : Dev nD) :
    (dat1 V c).arrays ((dat1 V c).arrAt · cfg1.N)
      ⊢ (iprop((((c : Thread nD τ).loc main_v0) ↦{fullShare} V c main_v0) ∗ (((c : Thread nD τ).loc main_v1) ↦{fullShare} V c main_v1) ∗ (((c : Thread nD τ).loc main_v2) ↦{fullShare} V c main_v2) ∗ (((c : Thread nD τ).loc main_v3) ↦{fullShare} V c main_v3) ∗ (((c : Thread nD τ).loc main_v4) ↦{fullShare} (dat1 V c).arrAt 5 cfg1.N)) : sProp 𝕄) := by
  rw [arrays1_eq]
  rw [show (dat1 V c).arrAt 0 cfg1.N = V c main_v0 from ((dat1 V c).arrAt_in 0 rfl _).trans (A_eq1 V c 0),
    show (dat1 V c).arrAt 1 cfg1.N = V c main_v0 from ((dat1 V c).arrAt_in 1 rfl _).trans (A_eq1 V c 1),
    show (dat1 V c).arrAt 2 cfg1.N = V c main_v1 from ((dat1 V c).arrAt_in 2 rfl _).trans (A_eq1 V c 2),
    show (dat1 V c).arrAt 3 cfg1.N = V c main_v2 from ((dat1 V c).arrAt_in 3 rfl _).trans (A_eq1 V c 3),
    show (dat1 V c).arrAt 4 cfg1.N = V c main_v3 from ((dat1 V c).arrAt_in 4 rfl _).trans (A_eq1 V c 4)]
  iintro ⟨Ha, Hb, H1, H2, H3, H4⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  iexact H4

end

end Cert.KernelIdeal.Fr

end
-- ==== Proof.Run.lean ====
/-
  The program's run: three host operations (the three coordinates sliced out of `x`; the graph ids reshaped to a column
  and to a row), the row-sum region, the main region. Between two of these every unscoped buffer of the core is held
  at known contents: the launch memory; then the host operations' results; then the row sums' array at what the
  first region's write-backs left; then the result array at what the second region's write-backs left. Every weakly
  fair execution terminates, and in every final memory the result array holds what the second region left and both
  argument arrays hold what they were launched with (no operation and no region writes them).
-/
import proofs.«153872_j12945031430844_1_alg».proof.Proof.Shares
import proofs.«153872_j12945031430844_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the program's items -/

/-- The row-sum region's entry contents: the launch memory after the three host operations. -/
abbrev E1 (c : Dev nD) (b : Ref sig .tc) : Buf (Elt F) ((c : Thread nD τ).loc b) := Gen.V1 m c b
/-- After the row-sum region: the row sums' array at what the region's write-backs left, every other buffer as before. -/
def Y2 (c : Dev nD) : Valuation τ sig (Elt F) :=
  Function.update (Gen.V1 m c) main_v3 ((dat0 (E1 m) c).arrAt 2 cfg0.N : Buf (Elt F) ((c : Thread nD τ).loc main_v3))
/-- The main region's entry contents. -/
abbrev E2 (c : Dev nD) (b : Ref sig .tc) : Buf (Elt F) ((c : Thread nD τ).loc b) := Y2 m c b
/-- After the main region: the result array at what the region's write-backs left. -/
def Y3 (c : Dev nD) : Valuation τ sig (Elt F) :=
  Function.update (Y2 m c) main_v4 ((dat1 (E2 m) c).arrAt 5 cfg1.N : Buf (Elt F) ((c : Thread nD τ).loc main_v4))
abbrev E3 (c : Dev nD) (b : Ref sig .tc) : Buf (Elt F) ((c : Thread nD τ).loc b) := Y3 m c b

theorem Y2_v3 (c : Dev nD) : E2 m c main_v3 = (dat0 (E1 m) c).arrAt 2 cfg0.N := by
  unfold E2 Y2; exact Function.update_self ..
theorem Y2_of (c : Dev nD) (r : Ref sig .tc) (h : r ≠ main_v3) : E2 m c r = E1 m c r := by
  unfold E2 Y2; exact Function.update_of_ne (StableHlo.devRef_ne_of_ne h : (Proc.devRef .tc r : DevRef τ sig) ≠ Proc.devRef .tc main_v3) _ _
theorem Y3_v4 (c : Dev nD) : E3 m c main_v4 = (dat1 (E2 m) c).arrAt 5 cfg1.N := by
  unfold E3 Y3; exact Function.update_self ..
theorem Y3_of (c : Dev nD) (r : Ref sig .tc) (h : r ≠ main_v4) : E3 m c r = E2 m c r := by
  unfold E3 Y3; exact Function.update_of_ne (StableHlo.devRef_ne_of_ne h : (Proc.devRef .tc r : DevRef τ sig) ≠ Proc.devRef .tc main_v4) _ _

/-- The argument arrays reach the end as launched. -/
theorem Y3_main_arg0 (c : Dev nD) : E3 m c main_arg0 = m ((c : Thread nD τ).loc main_arg0) :=
  (Y3_of m c main_arg0 (by decide)).trans <| (Y2_of m c main_arg0 (by decide)).trans <| (Gen.V1_of m c main_arg0 (by decide)).trans rfl
theorem Y3_main_arg1 (c : Dev nD) : E3 m c main_arg1 = m ((c : Thread nD τ).loc main_arg1) :=
  (Y3_of m c main_arg1 (by decide)).trans <| (Y2_of m c main_arg1 (by decide)).trans <| (Gen.V1_of m c main_arg1 (by decide)).trans rfl

/-! ## A region's arrays out of the unscoped buffers, and back -/

theorem rest0_eq (c : Dev nD) :
    (Pipeline.unscopedRest (Ix := Unit) (Name := ℕ) (U := UR sig nD τ) (Lvl := ℕ) spec0 c (E2 m c) : sProp 𝕄) = Pipeline.unscopedRest spec0 c (E1 m c) := by
  unfold Pipeline.unscopedRest
  exact bigSep_congr fun b hb => by
    have hb' : b ≠ main_v3 := fun e => (Finset.mem_sdiff.mp hb).2 (Finset.mem_image.mpr ⟨2, Finset.mem_univ _, e.symm⟩)
    rw [Y2_of m c b hb']
theorem rest1_eq (c : Dev nD) :
    (Pipeline.unscopedRest (Ix := Unit) (Name := ℕ) (U := UR sig nD τ) (Lvl := ℕ) spec1 c (E3 m c) : sProp 𝕄) = Pipeline.unscopedRest spec1 c (E2 m c) := by
  unfold Pipeline.unscopedRest
  exact bigSep_congr fun b hb => by
    have hb' : b ≠ main_v4 := fun e => (Finset.mem_sdiff.mp hb).2 (Finset.mem_image.mpr ⟨5, Finset.mem_univ _, e.symm⟩)
    rw [Y3_of m c b hb']

theorem hsplit0 (c : Dev nD) :
    (StableHlo.held (c : Thread nD τ) (Pipeline.ucRefs τ sig) (Gen.V1 m c) : sProp 𝕄)
      ⊢ iprop((dat0 (E1 m) c).arrays ((dat0 (E1 m) c).arrAt · 0) ∗ Pipeline.unscopedRest spec0 c (E1 m c)) := by
  rw [← Pipeline.unscopedBufs_held (Ix := Unit) (Name := ℕ) (U := UR sig nD τ) (Lvl := ℕ) c (Gen.V1 m c),
    Pipeline.unscopedBufs_split₀ cfgs (0 : Fin 2) winFacts₀0.arr_unscoped c (E1 m c)]
  exact sep_mono (arrays0_entry (E1 m) c) .rfl

theorem hjoin0 (c : Dev nD) :
    iprop((dat0 (E1 m) c).arrays ((dat0 (E1 m) c).arrAt · cfg0.N) ∗ Pipeline.unscopedRest spec0 c (E1 m c))
      ⊢ (StableHlo.held (c : Thread nD τ) (Pipeline.ucRefs τ sig) (Y2 m c) : sProp 𝕄) := by
  rw [← Pipeline.unscopedBufs_held (Ix := Unit) (Name := ℕ) (U := UR sig nD τ) (Lvl := ℕ) c (Y2 m c),
    Pipeline.unscopedBufs_split₀ cfgs (0 : Fin 2) winFacts₀0.arr_unscoped c (E2 m c)]
  change _ ⊢ iprop(Pipeline.arrBufs spec0 c (E2 m c) ∗ Pipeline.unscopedRest spec0 c (E2 m c))
  rw [arrBufs0_eq (E2 m) c, rest0_eq m c, Y2_of m c main_v0 (by decide), Y2_v3]
  exact sep_mono (arrays0_exit (E1 m) c) .rfl

theorem hsplit1 (c : Dev nD) :
    (StableHlo.held (c : Thread nD τ) (Pipeline.ucRefs τ sig) (Y2 m c) : sProp 𝕄)
      ⊢ iprop((dat1 (E2 m) c).arrays ((dat1 (E2 m) c).arrAt · 0) ∗ Pipeline.unscopedRest spec1 c (E2 m c)) := by
  rw [← Pipeline.unscopedBufs_held (Ix := Unit) (Name := ℕ) (U := UR sig nD τ) (Lvl := ℕ) c (Y2 m c),
    Pipeline.unscopedBufs_split₀ cfgs (1 : Fin 2) winFacts₀1.arr_unscoped c (E2 m c)]
  exact sep_mono (arrays1_entry (E2 m) c) .rfl

theorem hjoin1 (c : Dev nD) :
    iprop((dat1 (E2 m) c).arrays ((dat1 (E2 m) c).arrAt · cfg1.N) ∗ Pipeline.unscopedRest spec1 c (E2 m c))
      ⊢ (StableHlo.held (c : Thread nD τ) (Pipeline.ucRefs τ sig) (Y3 m c) : sProp 𝕄) := by
  rw [← Pipeline.unscopedBufs_held (Ix := Unit) (Name := ℕ) (U := UR sig nD τ) (Lvl := ℕ) c (Y3 m c),
    Pipeline.unscopedBufs_split₀ cfgs (1 : Fin 2) winFacts₀1.arr_unscoped c (E3 m c)]
  change _ ⊢ iprop(Pipeline.arrBufs spec1 c (E3 m c) ∗ Pipeline.unscopedRest spec1 c (E3 m c))
  rw [arrBufs1_eq (E3 m) c, rest1_eq m c, Y3_of m c main_v0 (by decide), Y3_of m c main_v1 (by decide), Y3_of m c main_v2 (by decide), Y3_of m c main_v3 (by decide), Y3_v4]
  exact sep_mono (arrays1_exit (E2 m) c) .rfl

/-! ## The proof data family and the thread state -/

/-- Each region's proof data at its entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Y3 m c) ∗ ∃ r, prngReg c r)

/-! ## The regions as segments -/

set_option backward.isDefEq.respectTransparency.types false in
/-- Region 0 over the thread state: entered from every unscoped buffer at the contents before it, left at the contents
    after it; its arrays split out of the unscoped buffers and put back; the generator register into the region's
    invariant and out; nothing owed; no semaphore of the kernel's own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Y2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    iintro ⟨⟨Hub, Hp, HO⟩, -, -⟩
    ihave H := (hsplit0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c); unfold Pipeline.ΦA
    iintro ⟨Hp, -, Hr⟩
    isplitl [Hr]; · iexact Hr
    iexact Hp
  hout c := by
    rw [Pipeline.ownSems0_none]
    refine (hout0 (E1 m) c).trans ?_; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hjoin0 m c); isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register into the region's
    invariant and out; nothing owed; no semaphore of the kernel's own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Y2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := (hsplit1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (hjoin1 m c); isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting; in every final
    memory the result array holds what the main region's write-backs left, and the argument arrays are as launched. -/
theorem run_main (ρ : Dev nD → PrngReg) : θ_run defs (onTc (τ := τ) (main (F := F))) ⟨m, fun _ => 0, ρ⟩ (fun r => ∀ c : Dev nD,
      r.2.mem ((c.tc : Thread nD τ).loc main_v4) = (dat1 (E2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y3 m c b)
    (hfin := fun c s' => by
      iintro ⟨⟨Hh, -⟩, HSI⟩
      unfold StableHlo.held
      imodintro
      iapply (pointsTo_read_all (Pipeline.ucRefs τ sig) (fun b => (((c : Thread nD τ)).1, b)) (Y3 m c) s')
      isplitl [Hh] <;> iassumption)
    (hQ := fun s h c =>
      ⟨(h c _ (mem_uc main_v4 (by decide))).trans (Y3_v4 m c),
       (h c _ (mem_uc main_arg0 (by decide))).trans (Y3_main_arg0 m c),
       (h c _ (mem_uc main_arg1 (by decide))).trans (Y3_main_arg1 m c)⟩)

/-- THE FRAME: the run with the result array's contents forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Fr

end
-- ==== Proof.Spec.lean ====
/-
  The result of the adjacency computation as ONE function of the argument arrays, index by index, on the
  extended reals. Row `r` of `x` contributes its first three coordinates `u = x[r, 0..2]`. For two rows
  `u`, `v` the squared distance is `(|u|² + |v|²) − 2·⟨u, v⟩`, clamped below at zero; the affinity is
  `exp (exp ((−½ · d²) / ¼))`; a row's affinities are normalised by their sum over ALL 8192 columns; an
  entry is kept when its weight exceeds the threshold and the two rows carry the same graph id, and is zero
  otherwise. The float literals stay as their words: both programs spell the same words.
  Also here: the eight successive partial sums of 1024 columns each, added up from zero in order, which is how
  one of the two programs takes a row's sum.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![8192, 6]⟩
abbrev SB : Shape := ⟨1, ![8192]⟩
abbrev SO : Shape := ⟨2, ![8192, 8192]⟩

/-- The float zero, as the word both programs spell. -/
abbrev zf : EReal := Ideal.ofBits .f32 0x00000000#32

/-- The affinity of two points given by their three coordinates. -/
def aff3 (u v : Fin 3 → EReal) : EReal :=
  Ideal.exp (Ideal.exp (Ideal.div
    (Ideal.ofBits .f32 0xBF000000#32 *
      max (((∑ k : Fin 3, u k * u k) + (∑ k : Fin 3, v k * v k))
            - Ideal.ofBits .f32 0x40000000#32 * (∑ k : Fin 3, u k * v k)) zf)
    (Ideal.ofBits .f32 0x3E800000#32)))

/-- An entry's value from the affinity `a`, its row's normaliser `s` and the two graph ids. -/
def entry (a s : EReal) (bi bj : BitVec 32) : EReal :=
  Scalar.select
    (IntOp.andi (FloatOps.cmpf (F := Ideal) (φ := .f32) .ogt (Ideal.div a s) (Ideal.ofBits .f32 0x38D1B717#32)) (IntOp.cmpi .eq bi bj))
    (Ideal.div a s) zf

/-- Row `r`'s first three coordinates. -/
def xyz (x : FVec Ideal SX .f32) (r : Fin 8192) (k : Fin 3) : EReal :=
  x (ix2 r (Fin.castLE (by decide) k))

def aff (x : FVec Ideal SX .f32) (r s : Fin 8192) : EReal := aff3 (xyz x r) (xyz x s)

/-- The normaliser of row `r`: its affinities summed over every column. -/
def rowsum (x : FVec Ideal SX .f32) (r : Fin 8192) : EReal := ∑ s : Fin 8192, aff x r s

/-- THE RESULT. -/
def G (x : FVec Ideal SX .f32) (b : IVec SB 32) : FVec Ideal SO .f32 := fun i =>
  entry (aff x (i 0) (i 1)) (rowsum x (i 0)) (b (ix1 (i 0))) (b (ix1 (i 1)))

/-! ## A sum over 8192 columns in eight runs of 1024 -/

/-- Column `1024·j + q`. -/
def col (j : Fin 8) (q : Fin 1024) : Fin 8192 := ⟨1024 * j.val + q.val, by have := j.isLt; have := q.isLt; omega⟩

/-- The partial sums added up from zero, run by run: after `n` runs. -/
def accum (f : Fin 8192 → EReal) : (n : ℕ) → n ≤ 8 → EReal
  | 0, _ => 0
  | n + 1, h => accum f n (Nat.le_of_succ_le h) + ∑ q : Fin 1024, f (col ⟨n, h⟩ q)

end Cert.Spec

end
-- ==== Proof.SumRuns.lean ====
/-
  A sum over 8192 columns is the eight partial sums over runs of 1024 consecutive columns, added up from
  zero in order: addition on the extended reals is commutative and associative, and every column
  `s` is `1024·j + q` for exactly one run `j` and one offset `q`.
-/
import proofs.«153872_j12945031430844_1_alg».proof.Proof.Spec
import Mathlib.Algebra.BigOperators.Fin
import Mathlib.Algebra.BigOperators.Group.Finset.Sigma
import Mathlib.Logic.Equiv.Fin.Basic

noncomputable section

namespace Cert.Spec

open Idealize.ShloMosaic

/-- After `n` runs the accumulated value is the double sum over the first `n` runs. -/
theorem accum_eq_runs (f : Fin 8192 → EReal) : ∀ (n : ℕ) (h : n ≤ 8),
    accum f n h = ∑ j : Fin n, ∑ q : Fin 1024, f (col (Fin.castLE h j) q)
  | 0, _ => by simp [accum]
  | n + 1, h => by
    rw [accum, accum_eq_runs f n (Nat.le_of_succ_le h)]
    exact (Fin.sum_univ_castSucc
      (fun j : Fin (n + 1) => ∑ q : Fin 1024, f (col (Fin.castLE h j) q))).symm

/-- The pair (run, offset) names each column exactly once. -/
def runEquiv : Fin 8 × Fin 1024 ≃ Fin 8192 :=
  finProdFinEquiv.trans (finCongr (by norm_num))

theorem runEquiv_apply (p : Fin 8 × Fin 1024) : runEquiv p = col p.1 p.2 := by
  apply Fin.ext
  simp [runEquiv, col, finProdFinEquiv, Nat.add_comm]

theorem accum_eq_sum (f : Fin 8192 → EReal) : accum f 8 (le_refl 8) = ∑ s : Fin 8192, f s := by
  rw [accum_eq_runs f 8 (le_refl 8), ← Fintype.sum_prod_type']
  exact Fintype.sum_equiv runEquiv _ _ (fun p => by rw [runEquiv_apply]; rfl)

end Cert.Spec

end
-- ==== Proof.KSpec.lean ====
/-
  The two kernel regions' results as whole-array functions of the arrays each region finds. The row-sum region leaves,
  at row `r`, the sum over all 8192 rows `s` of the affinity of rows `r` and `s` of the coordinates' array. The
  main region leaves, at `(r, s)`, the entry made of that affinity, row `r`'s sum, and the two graph ids.
-/
import proofs.«153872_j12945031430844_1_alg».proof.KernelIdeal
import proofs.«153872_j12945031430844_1_alg».proof.Proof.Spec

noncomputable section

namespace Cert.KernelIdeal.KVal

open Idealize.ShloMosaic Idealize.ShloMosaic.ValueIdx Cert.KernelIdeal

/-- The row sums, from the coordinates' array. -/
def RS (a0 : FVec Ideal S8192x3 .f32) : FVec Ideal S8192x1 .f32 := fun i =>
  ∑ s : Fin 8192, Cert.Spec.aff3 (fun k => a0 (ix2 (i 0) k)) (fun k => a0 (ix2 s k))

/-- The adjacency, from the coordinates' array, the graph ids as a column and as a row, and the row sums. -/
def G1 (a0 : FVec Ideal S8192x3 .f32) (b1 : IVec S8192x1 32) (b2 : IVec S1x8192 32) (rs : FVec Ideal S8192x1 .f32) : FVec Ideal S8192x8192 .f32 := fun i =>
  Cert.Spec.entry (Cert.Spec.aff3 (fun k => a0 (ix2 (i 0) k)) (fun k => a0 (ix2 (i 1) k))) (rs (ix2 (i 0) 0)) (b1 (ix2 (i 0) 0)) (b2 (ix2 0 (i 1)))

end Cert.KernelIdeal.KVal

end
-- ==== Proof.KPay.lean ====
/-
  The two kernels' stored blocks read at an index, on the extended reals.

  Both kernels form, from a block `x0` of 1024 rows and a block `x1` of 1024 rows (three coordinates each), the
  1024 × 1024 block of affinities: the squared distance of row `p` of `x0` and row `q` of `x1` as
  `(|u|² + |v|²) − 2·⟨u, v⟩`, with `|u|²` a sum over the three coordinates kept as a one-column matrix and spread
  along the rows, `|v|²` the same column turned into a row and spread down the columns, and `⟨u, v⟩` the product of
  `x0` with the transpose of `x1` into a zero block; then the clamp at zero and the two exponentials.
  Read at `(p, q)` that block is `Spec.aff3` of the two rows (`affBlock_apply`). From it:
  • the row-sum kernel stores, at row `p`, what its accumulator held plus the sum of the block's row `p` (`pay2_apply`),
    and first of all the zero block (`pay1_apply`);
  • the main kernel stores, at `(p, q)`, `Spec.entry` of the affinity, the row's normaliser and the two graph ids
    (`k1_store_apply`).
  Before them: the layout operations of a one-column matrix read at an index, a sum along a row, and the block product
  read at an index as a sum over its three inner coordinates.
-/
import proofs.«153872_j12945031430844_1_alg».proof.Proof.Gen.KernelIdeal.Skeleton
import proofs.«153872_j12945031430844_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen
open scoped BigOperators

/-! ## Layout operations of a one-column matrix, read at an index -/

section Layout
variable {α : Type}

/-- A vector of length `a` cast to an `[a, 1]` matrix reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` matrix broadcast to `[a, b]` reads, at `(p, c)`, the one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum along the rows' coordinates -/

/-- The sum of an `[a, b]` matrix over its second axis reads, at `p`, the sum of row `p`. -/
theorem rowSum_apply {a b : ℕ} (x : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x _ h hφ hacc (ix1 p)).trans ?_
  refine Finset.sum_congr rfl fun k _ => congrArg x ?_
  funext c
  match c with
  | ⟨0, _⟩ => exact Fin.ext rfl
  | ⟨1, _⟩ => exact Fin.ext rfl

/-! ## The block product read at an index -/

/-- The left operand's row coordinate is the output's. -/
theorem lhs_dot_0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
/-- The left operand's column coordinate is the contraction's. -/
theorem lhs_dot_1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
/-- The right operand's row coordinate is the contraction's. -/
theorem rhs_dot_0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
/-- The right operand's column coordinate is the output's. -/
theorem rhs_dot_1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- The product of a `[1024, 3]` block and a `[3, 1024]` block into the zero block reads, at `(p, q)`, the sum over
    the three inner coordinates of the products. -/
theorem matmul_zero_apply (A : FVec Ideal S1024x3 .f32) (B : FVec Ideal S3x1024 .f32) (p q : Fin 1024) :
    matmul dot_S1024x3_S3x1024_S1024x1024_1_0_0_1_n_n (some .fp32) A B (constant (F := Ideal) S1024x1024 .f32 0x00000000#32) (ix2 p q)
      = ∑ k : Fin 3, A (ix2 p k) * B (ix2 k q) := by
  refine (Ideal.matmul_constant_zero_apply dot_S1024x3_S3x1024_S1024x1024_1_0_0_1_n_n _ A B (ix2 p q)).trans ?_
  rw [← Equiv.sum_comp (contrEquiv1 dot_S1024x3_S3x1024_S1024x1024_1_0_0_1_n_n 3 rfl rfl).symm]
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 p q) ((contrEquiv1 dot_S1024x3_S3x1024_S1024x1024_1_0_0_1_n_n 3 rfl rfl).symm k) = ix2 p k := funext fun a => Fin.ext (by
    match a with
    | ⟨0, _⟩ => exact lhs_dot_0 _ _
    | ⟨1, _⟩ => exact (lhs_dot_1 _ _).trans hk)
  have er : dot_S1024x3_S3x1024_S1024x1024_1_0_0_1_n_n.rhsIdx (ix2 p q) ((contrEquiv1 dot_S1024x3_S3x1024_S1024x1024_1_0_0_1_n_n 3 rfl rfl).symm k) = ix2 k q := funext fun a => Fin.ext (by
    match a with
    | ⟨0, _⟩ => exact (rhs_dot_0 _ _).trans hk
    | ⟨1, _⟩ => exact rhs_dot_1 _ _)
  rw [el, er]

/-! ## The affinity block -/

/-- The rows' squared lengths, as a one-column matrix. -/
def sqcol (x : FVec Ideal S1024x3 .f32) : FVec Ideal S1024x1 .f32 :=
  shapeCast S1024x1 (multiReduction .add [1] S1024 (mulf x x) 0x00000000#32 reduces_S1024x3_S1024 (.inl rfl) rfl)
    shapeCasts_S1024_S1024x1

/-- The block of affinities between the rows of `x0` and the rows of `x1`, as both kernels compute it. -/
def affBlock (x0 x1 : FVec Ideal S1024x3 .f32) : FVec Ideal S1024x1024 .f32 :=
  exp (exp (divf
    (mulf (broadcast S1024x1024 (Scalar.ofBits (F := Ideal) .f32 0xBF000000#32))
      (maximumf
        (subf
          (addf (broadcastTo S1024x1024 (sqcol x0) broadcasts_S1024x1_S1024x1024)
            (broadcastTo S1024x1024 (transpose S1x1024 [1, 0] (sqcol x1) transposes_S1024x1_p1_0_S1x1024)
              broadcasts_S1x1024_S1024x1024))
          (mulf (broadcast S1024x1024 (Scalar.ofBits (F := Ideal) .f32 0x40000000#32))
            (matmul dot_S1024x3_S3x1024_S1024x1024_1_0_0_1_n_n (some .fp32) x0
              (transpose S3x1024 [1, 0] x1 transposes_S1024x3_p1_0_S3x1024)
              (constant (F := Ideal) S1024x1024 .f32 0x00000000#32))))
        (broadcast S1024x1024 (Scalar.ofBits (F := Ideal) .f32 0x00000000#32))))
    (broadcast S1024x1024 (Scalar.ofBits (F := Ideal) .f32 0x3E800000#32))))

/-- The row-sum kernel's stored block, over the affinity block. -/
theorem k0_pay2_eq (x0 x1 : Vec Ideal S1024x3 .f32) (s : Vec Ideal S1024x1 .f32) :
    Gen.k0_pay2 (F := Ideal) x0 x1 s
      = shapeCast S1024x1 (addf s (shapeCast S1024x1
          (multiReduction .add [1] S1024
            (affBlock (shapeCast S1024x3 x0 shapeCasts_S1024x3_S1024x3) (shapeCast S1024x3 x1 shapeCasts_S1024x3_S1024x3))
            0x00000000#32 reduces_S1024x1024_S1024 (.inl rfl) rfl)
          shapeCasts_S1024_S1024x1)) shapeCasts_S1024x1_S1024x1 := rfl

/-- The main kernel's normalised block, over the affinity block. -/
theorem k1_pay2_eq (x0 x1 : Vec Ideal S1024x3 .f32) (rs : Vec Ideal S1024x1 .f32) :
    Gen.k1_pay2 (F := Ideal) x0 x1 rs
      = divf (affBlock (shapeCast S1024x3 x0 shapeCasts_S1024x3_S1024x3) (shapeCast S1024x3 x1 shapeCasts_S1024x3_S1024x3))
          (broadcastTo S1024x1024 (shapeCast S1024x1 rs shapeCasts_S1024x1_S1024x1) broadcasts_S1024x1_S1024x1024) := rfl

/-- The affinity of two points from the three sums it is made of. -/
theorem aff3_of {A B M : EReal} (u v : Fin 3 → EReal) (hA : A = ∑ k : Fin 3, u k * u k)
    (hB : B = ∑ k : Fin 3, v k * v k) (hM : M = ∑ k : Fin 3, u k * v k) :
    Ideal.exp (Ideal.exp (Ideal.div
      (Ideal.ofBits .f32 0xBF000000#32 * max ((A + B) - Ideal.ofBits .f32 0x40000000#32 * M) Cert.Spec.zf)
      (Ideal.ofBits .f32 0x3E800000#32))) = Cert.Spec.aff3 u v := by
  subst hA hB hM; rfl

/-- A row's squared length, read in the column. -/
theorem sqcol_apply (x : FVec Ideal S1024x3 .f32) (p : Fin 1024) (u : Fin 1) :
    sqcol x (ix2 p u) = ∑ k : Fin 3, x (ix2 p k) * x (ix2 p k) := by
  unfold sqcol
  refine (shapeCast_a_a1_apply _ _ p u).trans ?_
  exact rowSum_apply (mulf x x) _ _ _ p

/-- THE AFFINITY BLOCK AT `(p, q)`: the affinity of row `p` of `x0` and row `q` of `x1`. -/
theorem affBlock_apply (x0 x1 : FVec Ideal S1024x3 .f32) (p q : Fin 1024) :
    affBlock x0 x1 (ix2 p q) = Cert.Spec.aff3 (fun k => x0 (ix2 p k)) (fun k => x1 (ix2 q k)) := by
  have hA : broadcastTo S1024x1024 (sqcol x0) broadcasts_S1024x1_S1024x1024 (ix2 p q)
      = ∑ k : Fin 3, x0 (ix2 p k) * x0 (ix2 p k) :=
    (broadcastTo_a1_ab_apply _ _ p q).trans (sqcol_apply x0 p 0)
  have hB : broadcastTo S1024x1024 (transpose S1x1024 [1, 0] (sqcol x1) transposes_S1024x1_p1_0_S1x1024)
        broadcasts_S1x1024_S1024x1024 (ix2 p q)
      = ∑ k : Fin 3, x1 (ix2 q k) * x1 (ix2 q k) :=
    ((broadcastTo_1b_ab_apply _ _ p q).trans (transpose_ix2_apply _ _ (0 : Fin 1) q)).trans (sqcol_apply x1 q 0)
  have hM : matmul dot_S1024x3_S3x1024_S1024x1024_1_0_0_1_n_n (some .fp32) x0
        (transpose S3x1024 [1, 0] x1 transposes_S1024x3_p1_0_S3x1024)
        (constant (F := Ideal) S1024x1024 .f32 0x00000000#32) (ix2 p q)
      = ∑ k : Fin 3, x0 (ix2 p k) * x1 (ix2 q k) :=
    (matmul_zero_apply x0 _ p q).trans
      (Finset.sum_congr rfl fun k _ => congrArg (x0 (ix2 p k) * ·) (transpose_ix2_apply x1 _ k q))
  exact aff3_of (fun k => x0 (ix2 p k)) (fun k => x1 (ix2 q k)) hA hB hM

/-! ## The payloads at an index -/

/-- The row-sum kernel's first stored block is the zero block. -/
theorem pay1_apply (y : S1024x1.Idx) : Gen.k0_pay1 (F := Ideal) y = 0 := by
  unfold Gen.k0_pay1
  exact (congrFun (shapeCast_self _ _) y).trans Ideal.ofBits_zero_f32

/-- THE ROW-SUM KERNEL'S STORED BLOCK AT ROW `p`: what the accumulator held plus the sum, over the block's 1024 columns,
    of the affinities of row `p` of `x0` with the rows of `x1`. -/
theorem pay2_apply (x0 x1 : Vec Ideal S1024x3 .f32) (s : Vec Ideal S1024x1 .f32) (p : Fin 1024) :
    Gen.k0_pay2 (F := Ideal) x0 x1 s (ix2 p 0)
      = s (ix2 p 0) + ∑ q : Fin 1024, Cert.Spec.aff3 (fun k => x0 (ix2 p k)) (fun k => x1 (ix2 q k)) := by
  rw [k0_pay2_eq, shapeCast_self x0, shapeCast_self x1]
  refine (congrFun (shapeCast_self _ _) (ix2 p 0)).trans ?_
  refine congrArg (s (ix2 p 0) + ·) ?_
  refine (shapeCast_a_a1_apply _ _ p 0).trans ?_
  refine (rowSum_apply _ _ _ _ p).trans ?_
  exact Finset.sum_congr rfl fun q _ => affBlock_apply x0 x1 p q

/-- The main kernel's normalised block at `(p, q)`: the affinity over the row's normaliser. -/
theorem pay2_main_apply (x0 x1 : Vec Ideal S1024x3 .f32) (rs : Vec Ideal S1024x1 .f32) (p q : Fin 1024) :
    Gen.k1_pay2 (F := Ideal) x0 x1 rs (ix2 p q)
      = Ideal.div (Cert.Spec.aff3 (fun k => x0 (ix2 p k)) (fun k => x1 (ix2 q k))) (rs (ix2 p 0)) := by
  rw [k1_pay2_eq, shapeCast_self x0, shapeCast_self x1, shapeCast_self rs]
  exact congrArg₂ Ideal.div (affBlock_apply x0 x1 p q) (broadcastTo_a1_ab_apply _ _ p q)

/-- The main kernel's "same graph" block at `(p, q)`: the comparison of row `p`'s id with column `q`'s. -/
theorem pay3_apply (bi : Vec Ideal S1024x1 .i32) (bj : Vec Ideal S1x1024 .i32) (p q : Fin 1024) :
    Gen.k1_pay3 (F := Ideal) bi bj (ix2 p q) = IntOp.cmpi .eq (bi (ix2 p 0)) (bj (ix2 0 q)) := by
  have hbi : broadcastTo S1024x1024 (shapeCast S1024x1 bi shapeCasts_S1024x1_S1024x1) broadcasts_S1024x1_S1024x1024 (ix2 p q)
      = bi (ix2 p 0) :=
    (broadcastTo_a1_ab_apply _ _ p q).trans (congrFun (shapeCast_self bi _) (ix2 p 0))
  have hbj : broadcastTo S1024x1024 (shapeCast S1x1024 bj shapeCasts_S1x1024_S1x1024) broadcasts_S1x1024_S1024x1024 (ix2 p q)
      = bj (ix2 0 q) :=
    (broadcastTo_1b_ab_apply _ _ p q).trans (congrFun (shapeCast_self bj _) (ix2 0 q))
  exact congrArg₂ (IntOp.cmpi .eq) hbi hbj

/-- An entry from the weight and the comparison it is made of. -/
theorem entry_of {W : EReal} {c : BitVec 1} (a s : EReal) (bi bj : BitVec 32) (hW : W = Ideal.div a s)
    (hc : c = IntOp.cmpi .eq bi bj) :
    Scalar.select (IntOp.andi (FloatOps.cmpf (F := Ideal) (φ := .f32) .ogt W (Ideal.ofBits .f32 0x38D1B717#32)) c) W
      Cert.Spec.zf = Cert.Spec.entry a s bi bj := by
  subst hW hc; rfl

/-- THE MAIN KERNEL'S STORED BLOCK AT `(p, q)`: the entry of row `p` of `x0` against row `q` of `x1`, from the row's
    normaliser and the two graph ids. -/
theorem k1_store_apply (x0 x1 : Vec Ideal S1024x3 .f32) (rs : Vec Ideal S1024x1 .f32) (bi : Vec Ideal S1024x1 .i32)
    (bj : Vec Ideal S1x1024 .i32) (p q : Fin 1024) :
    Gen.k1_pay1 (F := Ideal) (Gen.k1_pay2 x0 x1 rs) (Gen.k1_pay3 (F := Ideal) bi bj) (Gen.k1_pay4 x0 x1 rs) (ix2 p q)
      = Cert.Spec.entry (Cert.Spec.aff3 (fun k => x0 (ix2 p k)) (fun k => x1 (ix2 q k))) (rs (ix2 p 0)) (bi (ix2 p 0))
          (bj (ix2 0 q)) :=
  entry_of _ _ _ _ (pay2_main_apply x0 x1 rs p q) (pay3_apply bi bj p q)

end Cert.KernelIdeal.KVal

end
-- ==== Proof.R0Value.lean ====
/-
  The row-sum region's output array after the run. Each case of the body leaves in the accumulator the one sum it
  stores last: the accumulator it found (zeroed first at a row block's first column block) plus, at offset `p`, the
  1024 affinities of row `1024·I + p` with the rows of column block `J`, where the point is `t = 8·I + J`. So after
  point `t` the accumulator holds the first `J + 1` partial sums of each of its rows, added up from zero in order
  (induction on the point); at `J = 7` that is the sum over all 8192 columns, and the output block receives it. The
  output array `8192 × 1` is tiled by the eight blocks written back at the points `8·I + 7`: row `r` by `I = r / 1024`.
-/
import proofs.«153872_j12945031430844_1_alg».proof.Proof.R0Frame
import proofs.«153872_j12945031430844_1_alg».proof.Proof.SumRuns
import proofs.«153872_j12945031430844_1_alg».proof.Proof.Spec
import proofs.«153872_j12945031430844_1_alg».proof.Proof.KSpec
import proofs.«153872_j12945031430844_1_alg».proof.Proof.KPay
import Idealize.ShloMosaic.Lib.Pipeline.Value
import Idealize.ShloMosaic.Lib.ValueIdx
import Idealize.ShloMosaic.Lib.Tactic

set_option maxRecDepth 16384

noncomputable section

namespace Cert.KernelIdeal.KVal

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Fr

section Pieces
variable {F : FTy → Type} [FloatOps F]

theorem r0_hz : (![0, 0] : Fin 2 → Nat) = fun _ => 0 := funext fun a => by fin_cases a <;> rfl

theorem r0_sout_B (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x3 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero r0_hz]
  simp only [View.readAt_eq_ld, harg2.read_unread, harg3.read_unread, harg5.read_unread,
    View.ld_unit_zero (S := S1024x3) r0_hz, View.ld_unit_zero (S := S1024x1) r0_hz]

theorem r0_sout_A (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x3 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) r0_hz, View.readCov_unit_zero (S := S1024x1) _ r0_hz]
  simp only [View.readAt_eq_ld, harg2.read_unread, harg3.read_unread,
    View.ld_unit_zero (S := S1024x3) r0_hz]

theorem r0_sout_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero r0_hz]
  simp only [View.readAt_eq_ld, harg2.read_unread, harg3.read_unread, harg5.read_unread,
    View.ld_unit_zero (S := S1024x3) r0_hz, View.ld_unit_zero (S := S1024x1) r0_hz]

theorem r0_out_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x3 .f32) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero r0_hz, View.readCov_unit_zero (S := S1024x1) _ r0_hz]
  simp only [View.readAt_eq_ld, harg2.read_unread, harg3.read_unread, harg5.read_unread,
    View.ld_unit_zero (S := S1024x3) r0_hz, View.ld_unit_zero (S := S1024x1) r0_hz]

end Pieces

section Value
variable (V : (c : Dev nD) → (b : Ref sig .tc) → Buf (Elt Ideal) ((c : Thread nD τ).loc b))

/-- The coordinates' array as the region finds it, and the two blocks of it a point reads. -/
abbrev r0_xarr (c : Dev nD) : FVec Ideal S8192x3 .f32 := V c main_v0
abbrev r0_xblk0 (c : Dev nD) (t : Fin cfg0.N) : Vec Ideal S1024x3 .f32 := iblk0 V c 0 t
abbrev r0_xblk1 (c : Dev nD) (t : Fin cfg0.N) : Vec Ideal S1024x3 .f32 := iblk0 V c 1 t

/-- The printed index maps over the grid: row block `t / 8`, column block `t % 8`. -/
theorem r0_idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Row `1024 · (n / 8) + p`: offset `p` of point `n`'s row block. -/
def r0_row (n : ℕ) (p : Fin 1024) : Fin 8192 := ⟨1024 * (n / 8 % 8) + p.val, by have := p.isLt; omega⟩

/-- Row `r`'s affinities, as a function of the column. -/
def r0_R (a0 : FVec Ideal S8192x3 .f32) (r : Fin 8192) : Fin 8192 → EReal :=
  fun s => Cert.Spec.aff3 (fun k => a0 (ix2 r k)) (fun k => a0 (ix2 s k))

theorem r0_xblk0_apply (c : Dev nD) (t : Fin cfg0.N) (p : Fin 1024) (k : Fin 3) :
    r0_xblk0 V c t (ix2 p k) = r0_xarr V c (ix2 (r0_row t.val p) k) := by
  obtain ⟨e0, e1, e2, e3, e4, e5⟩ := r0_idx_facts t
  have hN : t.val < 64 := lt_of_lt_of_eq t.isLt N_0
  show ((cfg0.win 0).blk t).view.read (Elt Ideal) (V c (Pipeline.arrRef spec0 0)) (ix2 p k) = _
  rw [View.read_apply]
  show V c main_v0 _ = V c main_v0 _
  congr 1
  funext a; apply Fin.ext
  match a with
  | ⟨0, _⟩ => show win0_0.index t (0 : Fin 2) * 1024 + 1 * p.val = 1024 * (t.val / 8 % 8) + p.val; rw [e0]; omega
  | ⟨1, _⟩ => show win0_0.index t (1 : Fin 2) * 3 + 1 * k.val = k.val; rw [e1]; omega

theorem r0_xblk1_apply (c : Dev nD) (t : Fin cfg0.N) (q : Fin 1024) (k : Fin 3) :
    r0_xblk1 V c t (ix2 q k) = r0_xarr V c (ix2 (Cert.Spec.col ⟨t.val % 8, Nat.mod_lt _ (by decide)⟩ q) k) := by
  obtain ⟨e0, e1, e2, e3, e4, e5⟩ := r0_idx_facts t
  show ((cfg0.win 1).blk t).view.read (Elt Ideal) (V c (Pipeline.arrRef spec0 1)) (ix2 q k) = _
  rw [View.read_apply]
  show V c main_v0 _ = V c main_v0 _
  congr 1
  funext a; apply Fin.ext
  match a with
  | ⟨0, _⟩ => show win0_1.index t (0 : Fin 2) * 1024 + 1 * q.val = 1024 * (t.val % 8) + q.val; rw [e2]; omega
  | ⟨1, _⟩ => show win0_1.index t (1 : Fin 2) * 3 + 1 * k.val = k.val; rw [e3]; omega

end Value

section Value2
variable (V : (c : Dev nD) → (b : Ref sig .tc) → Buf (Elt Ideal) ((c : Thread nD τ).loc b))

theorem r0_accum_congr (f : Fin 8192 → EReal) {a b : ℕ} (e : a = b) (ha : a ≤ 8) (hb : b ≤ 8) :
    Cert.Spec.accum f a ha = Cert.Spec.accum f b hb := by subst e; rfl

/-- One point's addition: over an accumulator holding the first `t % 8` partial sums, the body leaves the first
    `t % 8 + 1`. -/
theorem r0_step (c : Dev nD) (t : Fin cfg0.N) (p : Fin 1024) (prev : Vec Ideal S1024x1 .f32)
    (hprev : prev (ix2 p 0)
      = Cert.Spec.accum (r0_R (r0_xarr V c) (r0_row t.val p)) (t.val % 8) (Nat.le_of_lt (Nat.mod_lt _ (by decide)))) :
    Gen.k0_pay2 (F := Ideal) (r0_xblk0 V c t) (r0_xblk1 V c t) prev (ix2 p 0)
      = Cert.Spec.accum (r0_R (r0_xarr V c) (r0_row t.val p)) (t.val % 8 + 1) (Nat.mod_lt _ (by decide)) := by
  refine (pay2_apply (r0_xblk0 V c t) (r0_xblk1 V c t) prev p).trans ?_
  rw [hprev]
  simp only [r0_xblk0_apply, r0_xblk1_apply]
  rfl

/-- At a row block's first column block the accumulator is zeroed first. -/
theorem r0_acc_A (c : Dev nD) (t : Fin cfg0.N) (h0 : t.val % 8 = 0) (p : Fin 1024) :
    (outsAt0 V c t.val t.isLt).2 (ix2 p 0)
      = Cert.Spec.accum (r0_R (r0_xarr V c) (r0_row t.val p)) (t.val % 8 + 1) (Nat.mod_lt _ (by decide)) := by
  rw [outsAt0_A V c t h0 (by omega)]
  dsimp only
  refine (congrFun (r0_sout_A c (grid0.coords t) (ms0_0 t) (hs0_0 t) (ms0_1 t) (hs0_1 t) (ms0_2 t) (hs0_2 t) scM0_0 (Memref.isWhole_whole _) _ _ (r0_xblk0 V c t) (r0_xblk1 V c t)) (ix2 p 0)).trans ?_
  refine r0_step V c t p _ ((pay1_apply (ix2 p 0)).trans ?_)
  exact (r0_accum_congr _ h0 _ (Nat.zero_le 8)).symm

/-- THE INVARIANT: after point `n` the accumulator holds, at offset `p`, the partial sums of row
    `1024 · (n / 8) + p`'s affinities over the first `n % 8 + 1` column blocks, added up from zero in order. -/
theorem r0_acc_eq (c : Dev nD) : ∀ (n : ℕ) (hn : n < cfg0.N) (p : Fin 1024),
    (outsAt0 V c n hn).2 (ix2 p 0)
      = Cert.Spec.accum (r0_R (r0_xarr V c) (r0_row n p)) (n % 8 + 1) (Nat.mod_lt _ (by decide)) := by
  intro n
  induction n with
  | zero => intro hn p; exact r0_acc_A V c ⟨0, hn⟩ (Nat.zero_mod 8) p
  | succ n ih =>
    intro hn p
    by_cases h0 : (n + 1) % 8 = 0
    · exact r0_acc_A V c ⟨n + 1, hn⟩ h0 p
    · have hrow : r0_row n p = r0_row (n + 1) p := Fin.ext (by simp only [r0_row]; omega)
      have hprev : (outsAt0 V c n (Nat.lt_of_succ_lt hn)).2 (ix2 p 0)
          = Cert.Spec.accum (r0_R (r0_xarr V c) (r0_row (n + 1) p)) ((n + 1) % 8) (Nat.le_of_lt (Nat.mod_lt _ (by decide))) := by
        rw [ih (Nat.lt_of_succ_lt hn) p, hrow]
        exact r0_accum_congr _ (by omega) _ _
      by_cases h1 : (n + 1) % 8 = 7
      · rw [outsAt0_C V c ⟨n + 1, hn⟩ h0 h1]
        dsimp only
        refine (congrFun (r0_sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (r0_xblk0 V c ⟨n + 1, hn⟩) (r0_xblk1 V c ⟨n + 1, hn⟩) _) (ix2 p 0)).trans ?_
        exact r0_step V c ⟨n + 1, hn⟩ p _ hprev
      · rw [outsAt0_B V c ⟨n + 1, hn⟩ h0 h1]
        dsimp only
        refine (congrFun (r0_sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (r0_xblk0 V c ⟨n + 1, hn⟩) (r0_xblk1 V c ⟨n + 1, hn⟩) _) (ix2 p 0)).trans ?_
        exact r0_step V c ⟨n + 1, hn⟩ p _ hprev

end Value2

section Final
variable (V : (c : Dev nD) → (b : Ref sig .tc) → Buf (Elt Ideal) ((c : Thread nD τ).loc b))

/-- At a row block's last column block the output block receives what the accumulator ends the point with. -/
theorem r0_out_eq_acc (c : Dev nD) (t : Fin cfg0.N) (h7 : t.val % 8 = 7) :
    (outsAt0 V c t.val t.isLt).1 = (outsAt0 V c t.val t.isLt).2 := by
  rw [outsAt0_C V c t (by omega) h7]
  dsimp only
  exact (r0_out_C c (grid0.coords t) (ms0_0 t) (hs0_0 t) (ms0_1 t) (hs0_1 t) (ms0_2 t) (hs0_2 t) scM0_0 (Memref.isWhole_whole _) _ _ (r0_xblk0 V c t) (r0_xblk1 V c t) _).trans
    (r0_sout_C c (grid0.coords t) (ms0_0 t) (hs0_0 t) (ms0_1 t) (hs0_1 t) (ms0_2 t) (hs0_2 t) scM0_0 (Memref.isWhole_whole _) _ _ (r0_xblk0 V c t) (r0_xblk1 V c t) _).symm

/-- After a row block's last column block the accumulator holds the whole row sums. -/
theorem r0_acc_last (c : Dev nD) (t : Fin cfg0.N) (h7 : t.val % 8 = 7) (p : Fin 1024) :
    (outsAt0 V c t.val t.isLt).2 (ix2 p 0) = RS (r0_xarr V c) (ix2 (r0_row t.val p) 0) := by
  rw [r0_acc_eq V c t.val t.isLt p,
    r0_accum_congr (r0_R (r0_xarr V c) (r0_row t.val p)) (show t.val % 8 + 1 = 8 by omega) _ (le_refl 8),
    Cert.Spec.accum_eq_sum]
  rfl

/-- An index of the output array is in point `t`'s block iff each coordinate is in the block's range on its axis. -/
theorem r0_mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v3).slice (win0_2.rect t)).set ↔ _
  rw [View.set_slice_whole, Rect.mem_set_unit]
  exact Iff.rfl

/-- What a point that writes back writes is its block of the row sums. -/
theorem r0_flushed_eq (c : Dev nD) (t : Fin cfg0.N) (hf : (cfg0.win 2).flush t = true) :
    (dat0 V c).flushed 2 t = ((cfg0.win 2).blk t).view.read (Elt Ideal) (RS (r0_xarr V c)) := by
  have h7 : t.val % 8 = 7 := (flush0_2 t).mp hf
  have hN : t.val < 64 := lt_of_lt_of_eq t.isLt N_0
  obtain ⟨e0, e1, e2, e3, e4, e5⟩ := r0_idx_facts t
  show (cfg0.win 2).cut (grid0.coords t) ((dat0 V c).after 2 t) = _
  rw [after0_2, r0_out_eq_acc V c t h7]
  refine funext fun (j : S1024x1.Idx) => ?_
  show (outsAt0 V c t.val t.isLt).2 j = RS (r0_xarr V c) (((cfg0.win 2).blk t).view.emb j)
  have hj1 : (j 1).val < 1 := idx2_lt1 j
  have hj : j = ix2 (j 0) 0 := by
    funext a
    match a with
    | ⟨0, _⟩ => rfl
    | ⟨1, _⟩ => exact Fin.ext (by show (j 1).val = 0; omega)
  have hemb : ((cfg0.win 2).blk t).view.emb j = ix2 (r0_row t.val (j 0)) 0 := by
    funext a; apply Fin.ext
    match a with
    | ⟨0, _⟩ => show win0_2.index t (0 : Fin 2) * 1024 + 1 * (j 0).val = 1024 * (t.val / 8 % 8) + (j 0).val; rw [e4]; omega
    | ⟨1, _⟩ => show win0_2.index t (1 : Fin 2) * 1 + 1 * (j 1).val = 0; rw [e5]; omega
  rw [hemb]
  exact (congrArg (outsAt0 V c t.val t.isLt).2 hj).trans (r0_acc_last V c t h7 (j 0))

/-- Row `r` of the output array is written back by the last column block of row block `r / 1024`. -/
theorem r0_cover (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  have hN : cfg0.N = 64 := N_0
  have ht : 8 * ((i 0).val / 1024) + 7 < cfg0.N := by rw [hN]; omega
  obtain ⟨e0, e1, e2, e3, e4, e5⟩ := r0_idx_facts ⟨8 * ((i 0).val / 1024) + 7, ht⟩
  refine ⟨⟨8 * ((i 0).val / 1024) + 7, ht⟩, (flush0_2 _).mpr (by dsimp only; omega), ?_⟩
  rw [r0_mem_blk]
  intro a
  match a with
  | ⟨0, _⟩ =>
    show win0_2.index ⟨8 * ((i 0).val / 1024) + 7, ht⟩ (0 : Fin 2) * 1024 ≤ (i 0).val
      ∧ (i 0).val < win0_2.index ⟨8 * ((i 0).val / 1024) + 7, ht⟩ (0 : Fin 2) * 1024 + 1024
    rw [e4]; dsimp only; omega
  | ⟨1, _⟩ =>
    show win0_2.index ⟨8 * ((i 0).val / 1024) + 7, ht⟩ (1 : Fin 2) * 1 ≤ (i 1).val
      ∧ (i 1).val < win0_2.index ⟨8 * ((i 0).val / 1024) + 7, ht⟩ (1 : Fin 2) * 1 + 1
    rw [e5]; omega

/-- THE ROW-SUM REGION'S OUTPUT ARRAY after the run: at row `r`, the sum of row `r`'s affinities over all columns. -/
theorem final0 (c : Dev nD) : (Fr.dat0 (F := Ideal) V c).arrAt 2 cfg0.N = RS (V c main_v0) :=
  (dat0 V c).arrAt_eq_of_cover 2 (RS (r0_xarr V c)) (r0_flushed_eq V c) r0_cover

end Final

end Cert.KernelIdeal.KVal

end
-- ==== Proof.R1Value.lean ====
/-
  The main region's output array after the run, as one function of the arrays the region reads.
  The grid is 8 by 8; at the point with row block I and column block J the body reads rows 1024·I … and rows
  1024·J … of the coordinates, the graph ids of those rows (as a column) and of those columns (as a row), and
  the row sums of rows 1024·I …, and stores one whole 1024 by 1024 block: entry (p, q) of it is the
  specification's entry for row 1024·I + p and column 1024·J + q. The sixty-four blocks tile the array, so
  every entry (r, s) of the array ends at the specification's entry for row r and column s.
-/
import proofs.«153872_j12945031430844_1_alg».proof.Proof.R1Frame
import proofs.«153872_j12945031430844_1_alg».proof.Proof.Spec
import proofs.«153872_j12945031430844_1_alg».proof.Proof.KSpec
import proofs.«153872_j12945031430844_1_alg».proof.Proof.KPay
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx Cert.KernelIdeal Cert.KernelIdeal.Gen Cert.KernelIdeal.Fr
open Idealize.ShloMosaic.Pipeline (Dat)

theorem main_zero_offsets : (![0, 0] : Fin 2 → Nat) = fun _ => 0 := funext fun a => by fin_cases a <;> rfl

/-- One entry of a stored block: when row `p` of the first coordinate block is row `r` of the array and row `q` of
    the second is row `s`, the graph ids read at `p` and `q` are those of `r` and `s`, and the row sum read at `p` is
    row `r`'s, entry `(p, q)` of the block is the array's entry `(r, s)`. -/
theorem main_block_entry (a0 : FVec Ideal S8192x3 .f32) (b1 : IVec S8192x1 32) (b2 : IVec S1x8192 32) (rs : FVec Ideal S8192x1 .f32)
    (x0 x1 : Vec Ideal S1024x3 .f32) (x2 : Vec Ideal S1024x1 .i32) (x3 : Vec Ideal S1x1024 .i32) (x4 : Vec Ideal S1024x1 .f32)
    (r s : Fin 8192) (p q : Fin 1024)
    (h0 : ∀ k : Fin 3, x0 (ix2 p k) = a0 (ix2 r k))
    (h1 : ∀ k : Fin 3, x1 (ix2 q k) = a0 (ix2 s k))
    (h2 : x2 (ix2 p 0) = b1 (ix2 r 0))
    (h3 : x3 (ix2 0 q) = b2 (ix2 0 s))
    (h4 : x4 (ix2 p 0) = rs (ix2 r 0)) :
    Gen.k1_pay1 (F := Ideal) (Gen.k1_pay2 x0 x1 x4) (Gen.k1_pay3 (F := Ideal) x2 x3) (Gen.k1_pay4 x0 x1 x4) (ix2 p q)
      = G1 a0 b1 b2 rs (ix2 r s) := by
  rw [k1_store_apply]
  unfold G1
  simp only [h0, h1, h2, h3, h4]

/-- The printed index maps, decided over the sixty-four points: the output's block is (row block, column block);
    the two coordinate windows follow the row block and the column block; the graph ids follow the row block as a
    column and the column block as a row; the row sums follow the row block. -/
theorem main_index_maps : ∀ t : Fin cfg1.N,
    win1_0.index t (0 : Fin 2) = win1_5.index t (0 : Fin 2) ∧ win1_0.index t (1 : Fin 2) = 0
    ∧ win1_1.index t (0 : Fin 2) = win1_5.index t (1 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = win1_5.index t (1 : Fin 2)
    ∧ win1_4.index t (0 : Fin 2) = win1_5.index t (0 : Fin 2) ∧ win1_4.index t (1 : Fin 2) = 0
    ∧ win1_5.index t (0 : Fin 2) ≤ 7 ∧ win1_5.index t (1 : Fin 2) ≤ 7 :=
  (by decide +kernel : ∀ t : Fin grid1.N, _)

/-- Every (row block, column block) pair is some point's. -/
theorem main_blocks_onto : ∀ (q0 : Fin 8) (q1 : Fin 8), ∃ t : Fin cfg1.N, win1_5.index t = ![q0.val, q1.val] :=
  (by decide +kernel : ∀ (q0 : Fin 8) (q1 : Fin 8), ∃ t : Fin grid1.N, win1_5.index t = ![q0.val, q1.val])

/-- What point `t` writes back is block `t` of `G1` of the arrays as the region finds them. -/
theorem main_flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (G1 (V c main_v0) (V c main_v1) (V c main_v2) (V c main_v3)) := by
  show (cfg1.win 5).cut (grid1.coords t) ((dat1 (F := Ideal) V c).after 5 t) = _
  rw [after1_5]
  unfold out1_5
  rw [View.canon_unit_zero main_zero_offsets]
  simp only [View.ld_unit_zero (S := S1024x3) main_zero_offsets, View.ld_unit_zero (S := S1024x1) main_zero_offsets, View.ld_unit_zero (S := S1x1024) main_zero_offsets]
  obtain ⟨e00, e01, e10, e11, e20, e21, e30, e31, e40, e41, l0, l1⟩ := main_index_maps t
  funext j
  have hj0 : (j 0).val < 1024 := (j 0).isLt
  have hj1 : (j 1).val < 1024 := (j 1).isLt
  have hr : win1_5.index t (0 : Fin 2) * 1024 + (j 0).val < 8192 := by omega
  have hs : win1_5.index t (1 : Fin 2) * 1024 + (j 1).val < 8192 := by omega
  have hemb : ((cfg1.win 5).blk t).view.emb j = ix2 (⟨_, hr⟩ : Fin 8192) (⟨_, hs⟩ : Fin 8192) := by
    funext a; apply Fin.ext
    match a with
    | ⟨0, _⟩ => show win1_5.index t (0 : Fin 2) * 1024 + 1 * (j 0).val = win1_5.index t (0 : Fin 2) * 1024 + (j 0).val; omega
    | ⟨1, _⟩ => show win1_5.index t (1 : Fin 2) * 1024 + 1 * (j 1).val = win1_5.index t (1 : Fin 2) * 1024 + (j 1).val; omega
  have hx : (cfg1.win 5).xinj (grid1.coords t) j = ix2 (⟨(j 0).val, hj0⟩ : Fin 1024) (⟨(j 1).val, hj1⟩ : Fin 1024) := by
    funext a; match a with | ⟨0, _⟩ => rfl | ⟨1, _⟩ => rfl
  show Gen.k1_pay1 (F := Ideal) (Gen.k1_pay2 (iblk1 V c 0 t) (iblk1 V c 1 t) (iblk1 V c 4 t)) (Gen.k1_pay3 (F := Ideal) (iblk1 V c 2 t) (iblk1 V c 3 t)) (Gen.k1_pay4 (iblk1 V c 0 t) (iblk1 V c 1 t) (iblk1 V c 4 t)) ((cfg1.win 5).xinj (grid1.coords t) j) = G1 (V c main_v0) (V c main_v1) (V c main_v2) (V c main_v3) (((cfg1.win 5).blk t).view.emb j)
  rw [hemb, hx]
  refine main_block_entry (V c main_v0) (V c main_v1) (V c main_v2) (V c main_v3) (iblk1 V c 0 t) (iblk1 V c 1 t) (iblk1 V c 2 t) (iblk1 V c 3 t) (iblk1 V c 4 t) _ _ _ _ ?_ ?_ ?_ ?_ ?_
  · intro k
    show V c main_v0 (((cfg1.win 0).blk t).view.emb (ix2 (⟨(j 0).val, hj0⟩ : Fin 1024) k)) = V c main_v0 (ix2 (⟨_, hr⟩ : Fin 8192) k)
    refine congrArg _ ?_
    funext a; apply Fin.ext
    match a with
    | ⟨0, _⟩ => show win1_0.index t (0 : Fin 2) * 1024 + 1 * (j 0).val = win1_5.index t (0 : Fin 2) * 1024 + (j 0).val; omega
    | ⟨1, _⟩ => show win1_0.index t (1 : Fin 2) * 3 + 1 * k.val = k.val; omega
  · intro k
    show V c main_v0 (((cfg1.win 1).blk t).view.emb (ix2 (⟨(j 1).val, hj1⟩ : Fin 1024) k)) = V c main_v0 (ix2 (⟨_, hs⟩ : Fin 8192) k)
    refine congrArg _ ?_
    funext a; apply Fin.ext
    match a with
    | ⟨0, _⟩ => show win1_1.index t (0 : Fin 2) * 1024 + 1 * (j 1).val = win1_5.index t (1 : Fin 2) * 1024 + (j 1).val; omega
    | ⟨1, _⟩ => show win1_1.index t (1 : Fin 2) * 3 + 1 * k.val = k.val; omega
  · show V c main_v1 (((cfg1.win 2).blk t).view.emb (ix2 (⟨(j 0).val, hj0⟩ : Fin 1024) (0 : Fin 1))) = V c main_v1 (ix2 (⟨_, hr⟩ : Fin 8192) (0 : Fin 1))
    refine congrArg _ ?_
    funext a; apply Fin.ext
    match a with
    | ⟨0, _⟩ => show win1_2.index t (0 : Fin 2) * 1024 + 1 * (j 0).val = win1_5.index t (0 : Fin 2) * 1024 + (j 0).val; omega
    | ⟨1, _⟩ => show win1_2.index t (1 : Fin 2) * 1 + 1 * 0 = 0; omega
  · show V c main_v2 (((cfg1.win 3).blk t).view.emb (ix2 (0 : Fin 1) (⟨(j 1).val, hj1⟩ : Fin 1024))) = V c main_v2 (ix2 (0 : Fin 1) (⟨_, hs⟩ : Fin 8192))
    refine congrArg _ ?_
    funext a; apply Fin.ext
    match a with
    | ⟨0, _⟩ => show win1_3.index t (0 : Fin 2) * 1 + 1 * 0 = 0; omega
    | ⟨1, _⟩ => show win1_3.index t (1 : Fin 2) * 1024 + 1 * (j 1).val = win1_5.index t (1 : Fin 2) * 1024 + (j 1).val; omega
  · show V c main_v3 (((cfg1.win 4).blk t).view.emb (ix2 (⟨(j 0).val, hj0⟩ : Fin 1024) (0 : Fin 1))) = V c main_v3 (ix2 (⟨_, hr⟩ : Fin 8192) (0 : Fin 1))
    refine congrArg _ ?_
    funext a; apply Fin.ext
    match a with
    | ⟨0, _⟩ => show win1_4.index t (0 : Fin 2) * 1024 + 1 * (j 0).val = win1_5.index t (0 : Fin 2) * 1024 + (j 0).val; omega
    | ⟨1, _⟩ => show win1_4.index t (1 : Fin 2) * 1 + 1 * 0 = 0; omega

/-- An index of the array is in point `t`'s block iff each coordinate is in the block's range on its axis. -/
theorem main_mem_blk (t : Fin cfg1.N) (i : S8192x8192.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v4).slice (win1_5.rect t)).set ↔ _
  rw [View.set_slice_whole, Rect.mem_set_unit]
  exact Iff.rfl

/-- The sixty-four blocks tile the array: entry (r, s) is in the block of the point with row block r / 1024 and
    column block s / 1024. -/
theorem main_cover (i : S8192x8192.Idx) :
    ∃ t : Fin cfg1.N, (cfg1.win 5).flush t = true ∧ i ∈ ((cfg1.win 5).blk t).view.set := by
  have hi0 : (i 0).val < 8192 := (i 0).isLt
  have hi1 : (i 1).val < 8192 := (i 1).isLt
  obtain ⟨t, ht⟩ := main_blocks_onto ⟨(i 0).val / 1024, by omega⟩ ⟨(i 1).val / 1024, by omega⟩
  have q0 : win1_5.index t (0 : Fin 2) = (i 0).val / 1024 := congrFun ht 0
  have q1 : win1_5.index t (1 : Fin 2) = (i 1).val / 1024 := congrFun ht 1
  refine ⟨t, flush1_5 t, ?_⟩
  rw [main_mem_blk]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 1024 ≤ (i 1).val ∧ (i 1).val < win1_5.index t (1 : Fin 2) * 1024 + 1024; omega

/-- The output array after the run is `G1` of the arrays the region finds. -/
theorem final1 (V : (c : Dev nD) → (b : Ref sig .tc) → Buf (Elt Ideal) ((c : Thread nD τ).loc b)) (c : Dev nD) :
    (Fr.dat1 (F := Ideal) V c).arrAt 5 cfg1.N = G1 (V c main_v0) (V c main_v1) (V c main_v2) (V c main_v3) :=
  (dat1 (F := Ideal) V c).arrAt_eq_of_cover 5 (G1 (V c main_v0) (V c main_v1) (V c main_v2) (V c main_v3)) (fun t _ => main_flushed_eq V c t) main_cover

end Cert.KernelIdeal.KVal

end
-- ==== Proof.HostPre.lean ====
/-
  What the three host operations before the first region leave in their result arrays, read at one index:
  the slice of the first three of six columns holds, at row `r` and column `k`, row `r`'s `k`-th coordinate;
  the two reshapes of the graph-id vector to a column and to a row hold, at row `r` (column `s`), the vector's
  entry `r` (`s`): a row-major position in an `8192 × 1` or a `1 × 8192` array is the one nontrivial coordinate.
-/
import proofs.«153872_j12945031430844_1_alg».proof.Proof.Gen.KernelIdeal.Regions
import proofs.«153872_j12945031430844_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.KVal

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

theorem V1_v0_eq : (Gen.V1 m c main_v0 : S8192x3.Idx → EReal)
    = extractStridedSlice S8192x3 ![0, 0] (m ((c : Thread nD τ).loc main_arg0) : S8192x6.Idx → EReal) slices_S8192x6_S8192x3_0_0 := by
  dsimp only [Gen.V1, Gen.hostOps0]
  after_results

theorem V1_v1_eq : (Gen.V1 m c main_v1 : S8192x1.Idx → BitVec 32)
    = shapeCast S8192x1 (m ((c : Thread nD τ).loc main_arg1) : S8192.Idx → BitVec 32) shapeCasts_S8192_S8192x1 := by
  dsimp only [Gen.V1, Gen.hostOps0]
  after_results
  rfl

theorem V1_v2_eq : (Gen.V1 m c main_v2 : S1x8192.Idx → BitVec 32)
    = shapeCast S1x8192 (m ((c : Thread nD τ).loc main_arg1) : S8192.Idx → BitVec 32) shapeCasts_S8192_S1x8192 := by
  dsimp only [Gen.V1, Gen.hostOps0]
  after_results
  rfl

/-- The slice at row `r`, column `k`: row `r`'s `k`-th coordinate. -/
theorem V1_v0_apply (r : Fin 8192) (k : Fin 3) :
    (Gen.V1 m c main_v0 : S8192x3.Idx → EReal) (ix2 r k)
      = Cert.Spec.xyz (m ((c : Thread nD τ).loc main_arg0)) r k := by
  rw [V1_v0_eq]
  unfold Cert.Spec.xyz
  refine extractStridedSlice_apply _ _ _ _ _ (Fin.forall_fin_two.2 ⟨?_, ?_⟩)
  · show r.val = 0 + r.val; omega
  · show k.val = 0 + k.val; omega

/-- The column of graph ids at row `r`: the vector's entry `r`. -/
theorem V1_v1_apply (r : Fin 8192) :
    (Gen.V1 m c main_v1 : S8192x1.Idx → BitVec 32) (ix2 r 0) = m ((c : Thread nD τ).loc main_arg1) (ix1 r) := by
  rw [V1_v1_eq]
  refine shapeCast_apply _ _ _ (ix1 r) ?_
  rw [Shape.rowMajor_val_two, Shape.rowMajor_val_one]
  show r.val = r.val * 1 + 0; omega

/-- The row of graph ids at column `s`: the vector's entry `s`. -/
theorem V1_v2_apply (s : Fin 8192) :
    (Gen.V1 m c main_v2 : S1x8192.Idx → BitVec 32) (ix2 0 s) = m ((c : Thread nD τ).loc main_arg1) (ix1 s) := by
  rw [V1_v2_eq]
  refine shapeCast_apply _ _ _ (ix1 s) ?_
  rw [Shape.rowMajor_val_two, Shape.rowMajor_val_one]
  show s.val = 0 * 8192 + s.val; omega

end Cert.KernelIdeal.KVal

end
-- ==== Proof.Bridge.lean ====
/-
  The kernel's whole-array result is the specification. Where the coordinates' array holds each row's first three
  coordinates, the graph ids stand as a column and as a row, and the row sums are the sums of the affinities over all
  8192 columns, the entry at (r, s) made of the affinity of rows `r` and `s`, row `r`'s sum and the two graph ids is
  the specified result's entry at (r, s).
-/
import proofs.«153872_j12945031430844_1_alg».proof.Proof.KSpec
import proofs.«153872_j12945031430844_1_alg».proof.Proof.Spec
import Idealize.ShloMosaic.Lib.ValueIdx

noncomputable section

namespace Cert.KernelIdeal.KVal

open Idealize.ShloMosaic Idealize.ShloMosaic.ValueIdx Cert.KernelIdeal

/-- A row of the coordinates' array is that row's first three coordinates. -/
theorem row_eq_xyz (x : FVec Ideal S8192x6 .f32) (a0 : FVec Ideal S8192x3 .f32)
    (h0 : ∀ (r : Fin 8192) (k : Fin 3), a0 (ix2 r k) = Cert.Spec.xyz x r k) (r : Fin 8192) :
    (fun k : Fin 3 => a0 (ix2 r k)) = Cert.Spec.xyz x r :=
  funext fun k => h0 r k

/-- The row sums at row `r`: the specified normaliser of row `r`. -/
theorem RS_apply (x : FVec Ideal S8192x6 .f32) (a0 : FVec Ideal S8192x3 .f32)
    (h0 : ∀ (r : Fin 8192) (k : Fin 3), a0 (ix2 r k) = Cert.Spec.xyz x r k) (r : Fin 8192) :
    RS a0 (ix2 r (0 : Fin 1)) = Cert.Spec.rowsum x r := by
  unfold RS Cert.Spec.rowsum Cert.Spec.aff
  refine Finset.sum_congr rfl fun (t : Fin 8192) _ => ?_
  show Cert.Spec.aff3 (fun k : Fin 3 => a0 (ix2 r k)) (fun k : Fin 3 => a0 (ix2 t k)) = _
  rw [row_eq_xyz x a0 h0 r, row_eq_xyz x a0 h0 t]

/-- The adjacency at (r, s). -/
theorem G1_apply (x : FVec Ideal S8192x6 .f32) (b : IVec S8192 32) (a0 : FVec Ideal S8192x3 .f32) (b1 : IVec S8192x1 32)
    (b2 : IVec S1x8192 32)
    (h0 : ∀ (r : Fin 8192) (k : Fin 3), a0 (ix2 r k) = Cert.Spec.xyz x r k) (h1 : ∀ r : Fin 8192, b1 (ix2 r 0) = b (ix1 r))
    (h2 : ∀ s : Fin 8192, b2 (ix2 0 s) = b (ix1 s)) (r s : Fin 8192) :
    G1 a0 b1 b2 (RS a0) (ix2 r s)
      = Cert.Spec.entry (Cert.Spec.aff x r s) (Cert.Spec.rowsum x r) (b (ix1 r)) (b (ix1 s)) := by
  show Cert.Spec.entry (Cert.Spec.aff3 (fun k : Fin 3 => a0 (ix2 r k)) (fun k : Fin 3 => a0 (ix2 s k)))
    (RS a0 (ix2 r (0 : Fin 1))) (b1 (ix2 r (0 : Fin 1))) (b2 (ix2 (0 : Fin 1) s)) = _
  rw [row_eq_xyz x a0 h0 r, row_eq_xyz x a0 h0 s, RS_apply x a0 h0 r, h1, h2]
  rfl

/-- THE KERNEL'S WHOLE-ARRAY RESULT is the specified function of the two arguments. -/
theorem G1_RS_eq_G (x : FVec Ideal S8192x6 .f32) (b : IVec S8192 32) (a0 : FVec Ideal S8192x3 .f32) (b1 : IVec S8192x1 32)
    (b2 : IVec S1x8192 32) (rs : FVec Ideal S8192x1 .f32)
    (h0 : ∀ (r : Fin 8192) (k : Fin 3), a0 (ix2 r k) = Cert.Spec.xyz x r k) (h1 : ∀ r : Fin 8192, b1 (ix2 r 0) = b (ix1 r))
    (h2 : ∀ s : Fin 8192, b2 (ix2 0 s) = b (ix1 s)) (hrs : rs = RS a0) :
    G1 a0 b1 b2 rs = Cert.Spec.G x b := by
  subst hrs
  funext i
  obtain ⟨r, s, rfl⟩ : ∃ (r s : Fin 8192), i = ix2 r s := ⟨i 0, i 1, eq_ix2 i⟩
  exact G1_apply x b a0 b1 b2 h0 h1 h2 r s

end Cert.KernelIdeal.KVal

end
-- ==== Proof.KernelValue.lean ====
/-
  The idealized kernel program's run with its result named: the result array ends at the specification `G` of the two
  argument arrays. The main region leaves `G1` of the arrays it finds; of those, the coordinates' array and the two
  graph-id arrays are what the host operations made of the arguments (the first three columns of `x`; `batch` as a
  column and as a row), and the row sums' array is what the row-sum region left, `RS` of the coordinates' array.
-/
import proofs.«153872_j12945031430844_1_alg».proof.Proof.Run
import proofs.«153872_j12945031430844_1_alg».proof.Proof.R0Value
import proofs.«153872_j12945031430844_1_alg».proof.Proof.R1Value
import proofs.«153872_j12945031430844_1_alg».proof.Proof.HostPre
import proofs.«153872_j12945031430844_1_alg».proof.Proof.Bridge

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- What the main region's write-backs leave in the result array is the specification of the arguments. -/
theorem result_eq (c : Dev nD) :
    (Fr.dat1 (F := Ideal) (Fr.E2 m) c).arrAt 5 cfg1.N
      = Cert.Spec.G (m ((c : Thread nD τ).loc main_arg0)) (m ((c : Thread nD τ).loc main_arg1)) := by
  rw [final1 (Fr.E2 m) c]
  refine G1_RS_eq_G (m ((c : Thread nD τ).loc main_arg0)) (m ((c : Thread nD τ).loc main_arg1)) _ _ _ _
    (fun r k => ?_) (fun r => ?_) (fun s => ?_) ?_
  · rw [Fr.Y2_of m c main_v0 (by decide)]; exact V1_v0_apply m c r k
  · rw [Fr.Y2_of m c main_v1 (by decide)]; exact V1_v1_apply m c r
  · rw [Fr.Y2_of m c main_v2 (by decide)]; exact V1_v2_apply m c s
  · rw [Fr.Y2_v3, final0 (Fr.E1 m) c, Fr.Y2_of m c main_v0 (by decide)]

/-- The run, the result at the specification. -/
theorem run_G (ρ : Dev nD → PrngReg) : θ_run (defs (F := Ideal)) (onTc (τ := τ) (main (F := Ideal))) ⟨m, fun _ => 0, ρ⟩ (fun r => ∀ c : Dev nD,
      r.2.mem ((c.tc : Thread nD τ).loc main_v4) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (Fr.run_main (F := Ideal) m ρ)

end Cert.KernelIdeal.KVal

end
-- ==== Proof.RefTerm.lean ====
/-
  The reference program's operations as pure stages, one definition per tensor value of its `main`, each a
  function of the stages before it; `out` is the program's result as a function of the two arguments.
  Columns 0, 1, 2 of `x` are taken by a gather at the constant index vector [0, 1, 2] (wrapped by +6 where
  negative: nowhere); then squared norms, the pairwise products, the clamped squared distance, the
  two exponentials, the row sums over all columns, the quotient, the threshold test, the graph-id test, the
  selection against zero.
-/
import proofs.«153872_j12945031430844_1_alg».proof.ReferenceIdeal
import proofs.«153872_j12945031430844_1_alg».proof.Proof.Gen.ReferenceIdeal

noncomputable section

namespace Cert.ReferenceIdeal.RefValue

open Idealize.ShloMosaic Cert.ReferenceIdeal Cert.ReferenceIdeal.Facts₀

variable {F : FTy → Type} [FloatOps F]

/-- `%c`: the constant index vector [0, 1, 2]. -/
def s_c : IVec S3 32 := fun i => lit0 (S3.rowMajor i)
def s_v0 : IVec S3 32 := broadcastInDim S3 ![] bcast_S_S3 (constantI S_ 32 0#32)
def s_v1 : IVec S3 1 := cmpi .slt s_c s_v0
def s_v2 : IVec S3 32 := broadcastInDim S3 ![] bcast_S_S3 (constantI S_ 32 6#32)
def s_v3 : IVec S3 32 := addi s_c s_v2
def s_v4 : IVec S3 32 := select s_v1 s_v3 s_c
def s_v5 : IVec S3x1 32 := broadcastInDim S3x1 ![0] bcast_S3_S3x1_0 s_v4
/-- `%6`: the three gathered columns. -/
def s_v6 (x : FVec F S8192x6 .f32) : FVec F S8192x3 .f32 := Host.gather gather_S8192x6_S3x1_S8192x3_0_1_n_n_1_1_81921 x s_v5
def s_v7 (x : FVec F S8192x6 .f32) : FVec F S8192x3 .f32 := mulf (s_v6 x) (s_v6 x)
/-- `%8`: the squared norms. -/
def s_v8 (x : FVec F S8192x6 .f32) : FVec F S8192 .f32 := Host.reduceAdd (s_v7 x) (constant S_ .f32 0x00000000#32) reducesTo_S8192x3_S8192_d1 h_S_
def s_v9 (x : FVec F S8192x6 .f32) : FVec F S8192x1 .f32 := broadcastInDim S8192x1 ![0] bcast_S8192_S8192x1_0 (s_v8 x)
def s_v10 (x : FVec F S8192x6 .f32) : FVec F S1x8192 .f32 := broadcastInDim S1x8192 ![1] bcast_S8192_S1x8192_1 (s_v8 x)
def s_v11 (x : FVec F S8192x6 .f32) : FVec F S8192x8192 .f32 := broadcastInDim S8192x8192 ![0, 1] bcast_S8192x1_S8192x8192_0_1 (s_v9 x)
def s_v12 (x : FVec F S8192x6 .f32) : FVec F S8192x8192 .f32 := broadcastInDim S8192x8192 ![0, 1] bcast_S1x8192_S8192x8192_0_1 (s_v10 x)
def s_v13 (x : FVec F S8192x6 .f32) : FVec F S8192x8192 .f32 := addf (s_v11 x) (s_v12 x)
def s_v14 (x : FVec F S8192x6 .f32) : FVec F S3x8192 .f32 := transpose S3x8192 [1, 0] (s_v6 x) transposes_S8192x3_S3x8192_1_0
/-- `%15`: the pairwise inner products. -/
def s_v15 (x : FVec F S8192x6 .f32) : FVec F S8192x8192 .f32 := Host.dotGeneral dot_S8192x3_S3x8192_S8192x8192_1_0_0_1_n_n none (s_v6 x) (s_v14 x)
def s_v16 : FVec F S8192x8192 .f32 := broadcastInDim S8192x8192 ![] bcast_S_S8192x8192 (constant S_ .f32 0x40000000#32)
def s_v17 (x : FVec F S8192x6 .f32) : FVec F S8192x8192 .f32 := mulf s_v16 (s_v15 x)
def s_v18 (x : FVec F S8192x6 .f32) : FVec F S8192x8192 .f32 := subf (s_v13 x) (s_v17 x)
def s_v19 : FVec F S8192x8192 .f32 := broadcastInDim S8192x8192 ![] bcast_S_S8192x8192 (constant S_ .f32 0x00000000#32)
def s_v20 (x : FVec F S8192x6 .f32) : FVec F S8192x8192 .f32 := maximumf (s_v18 x) s_v19
def s_v21 : FVec F S8192x8192 .f32 := broadcastInDim S8192x8192 ![] bcast_S_S8192x8192 (constant S_ .f32 0xBF000000#32)
def s_v22 (x : FVec F S8192x6 .f32) : FVec F S8192x8192 .f32 := mulf s_v21 (s_v20 x)
def s_v23 : FVec F S8192x8192 .f32 := broadcastInDim S8192x8192 ![] bcast_S_S8192x8192 (constant S_ .f32 0x3E800000#32)
def s_v24 (x : FVec F S8192x6 .f32) : FVec F S8192x8192 .f32 := Host.divf (s_v22 x) s_v23
def s_v25 (x : FVec F S8192x6 .f32) : FVec F S8192x8192 .f32 := Host.exp (s_v24 x)
/-- `%26`: the affinities' exponentials. -/
def s_v26 (x : FVec F S8192x6 .f32) : FVec F S8192x8192 .f32 := Host.exp (s_v25 x)
/-- `%27`: each row's sum over all columns. -/
def s_v27 (x : FVec F S8192x6 .f32) : FVec F S8192 .f32 := Host.reduceAdd (s_v26 x) (constant S_ .f32 0x00000000#32) reducesTo_S8192x8192_S8192_d1 h_S_
def s_v28 (x : FVec F S8192x6 .f32) : FVec F S8192x1 .f32 := broadcastInDim S8192x1 ![0] bcast_S8192_S8192x1_0 (s_v27 x)
def s_v29 (x : FVec F S8192x6 .f32) : FVec F S8192x8192 .f32 := broadcastInDim S8192x8192 ![0, 1] bcast_S8192x1_S8192x8192_0_1 (s_v28 x)
/-- `%30`: the weights. -/
def s_v30 (x : FVec F S8192x6 .f32) : FVec F S8192x8192 .f32 := Host.divf (s_v26 x) (s_v29 x)
def s_v31 : FVec F S8192x8192 .f32 := broadcastInDim S8192x8192 ![] bcast_S_S8192x8192 (constant S_ .f32 0x38D1B717#32)
def s_v32 (x : FVec F S8192x6 .f32) : IVec S8192x8192 1 := cmpf .ogt (s_v30 x) s_v31
def s_v33 (b : IVec S8192 32) : IVec S8192x1 32 := broadcastInDim S8192x1 ![0] bcast_S8192_S8192x1_0 b
def s_v34 (b : IVec S8192 32) : IVec S1x8192 32 := broadcastInDim S1x8192 ![1] bcast_S8192_S1x8192_1 b
def s_v35 (b : IVec S8192 32) : IVec S8192x8192 32 := broadcastInDim S8192x8192 ![0, 1] bcast_S8192x1_S8192x8192_0_1 (s_v33 b)
def s_v36 (b : IVec S8192 32) : IVec S8192x8192 32 := broadcastInDim S8192x8192 ![0, 1] bcast_S1x8192_S8192x8192_0_1 (s_v34 b)
def s_v37 (b : IVec S8192 32) : IVec S8192x8192 1 := cmpi .eq (s_v35 b) (s_v36 b)
def s_v38 (x : FVec F S8192x6 .f32) (b : IVec S8192 32) : IVec S8192x8192 1 := andi (s_v32 x) (s_v37 b)
/-- The call's `%1`: zero everywhere. -/
def s_call_v1 : FVec F S8192x8192 .f32 := broadcastInDim S8192x8192 ![] bcast_S_S8192x8192 (id (constant S_ .f32 0x00000000#32))
/-- `%39`: THE RESULT, as a function of the two arguments. -/
def out (x : FVec F S8192x6 .f32) (b : IVec S8192 32) : FVec F S8192x8192 .f32 := select (s_v38 x b) (s_v30 x) s_call_v1

end Cert.ReferenceIdeal.RefValue

end
-- ==== Proof.RefRun.lean ====
/-
  The reference program's run: its main function is a straight line of host operations (the call of the
  selection helper unfolded into its three operations over the call's own buffers), so every weakly fair
  execution terminates with each buffer at the fold of the operations' results over the launch contents.
  Read at the result buffer, that fold is the composition of the stages, `out` of the two arguments; read
  at an argument buffer, which no operation writes, it is the argument unchanged.
-/
import proofs.«153872_j12945031430844_1_alg».proof.ReferenceIdeal
import proofs.«153872_j12945031430844_1_alg».proof.Proof.Gen.ReferenceIdeal
import proofs.«153872_j12945031430844_1_alg».proof.Proof.RefTerm
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- The main function's 53 operations in order: its own 50, then the helper's three (the scalar zero
    at its own type, its broadcast, the selection) over the buffers of that call. -/
abbrev ops : List (HloOp τ sig (Elt F)) :=
  [ nullary main_c (fun i => lit0 (S3.rowMajor i)),
    nullary main_c_0 (constantI S_ 32 0#32),
    unary main_c_0 main_v0 (broadcastInDim S3 ![] bcast_S_S3 : (⟨S_, .i32⟩ : BufTy).Contents (Elt F) → (⟨S3, .i32⟩ : BufTy).Contents (Elt F)),
    binary main_c main_v0 main_v1 (cmpi .slt : (⟨S3, .i32⟩ : BufTy).Contents (Elt F) → (⟨S3, .i32⟩ : BufTy).Contents (Elt F) → (⟨S3, .i1⟩ : BufTy).Contents (Elt F)),
    nullary main_c_1 (constantI S_ 32 6#32),
    unary main_c_1 main_v2 (broadcastInDim S3 ![] bcast_S_S3 : (⟨S_, .i32⟩ : BufTy).Contents (Elt F) → (⟨S3, .i32⟩ : BufTy).Contents (Elt F)),
    binary main_c main_v2 main_v3 (addi : (⟨S3, .i32⟩ : BufTy).Contents (Elt F) → (⟨S3, .i32⟩ : BufTy).Contents (Elt F) → (⟨S3, .i32⟩ : BufTy).Contents (Elt F)),
    ternary main_v1 main_v3 main_c main_v4 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v4 main_v5 (broadcastInDim S3x1 ![0] bcast_S3_S3x1_0 : (⟨S3, .i32⟩ : BufTy).Contents (Elt F) → (⟨S3x1, .i32⟩ : BufTy).Contents (Elt F)),
    binary main_arg0 main_v5 main_v6 ((fun x i => Host.gather gather_S8192x6_S3x1_S8192x3_0_1_n_n_1_1_81921 x i) : (⟨S8192x6, .f32⟩ : BufTy).Contents (Elt F) → (⟨S3x1, .i32⟩ : BufTy).Contents (Elt F) → (⟨S8192x3, .f32⟩ : BufTy).Contents (Elt F)),
    binary main_v6 main_v6 main_v7 (mulf : (⟨S8192x3, .f32⟩ : BufTy).Contents (Elt F) → (⟨S8192x3, .f32⟩ : BufTy).Contents (Elt F) → (⟨S8192x3, .f32⟩ : BufTy).Contents (Elt F)),
    nullary main_cst (constant S_ .f32 0x00000000#32),
    binary main_v7 main_cst main_v8 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    unary main_v8 main_v10 (broadcastInDim S1x8192 ![1] bcast_S8192_S1x8192_1 : (⟨S8192, .f32⟩ : BufTy).Contents (Elt F) → (⟨S1x8192, .f32⟩ : BufTy).Contents (Elt F)),
    unary main_v9 main_v11 (broadcastInDim S8192x8192 ![0, 1] bcast_S8192x1_S8192x8192_0_1 : (⟨S8192x1, .f32⟩ : BufTy).Contents (Elt F) → (⟨S8192x8192, .f32⟩ : BufTy).Contents (Elt F)),
    unary main_v10 main_v12 (broadcastInDim S8192x8192 ![0, 1] bcast_S1x8192_S8192x8192_0_1 : (⟨S1x8192, .f32⟩ : BufTy).Contents (Elt F) → (⟨S8192x8192, .f32⟩ : BufTy).Contents (Elt F)),
    binary main_v11 main_v12 main_v13 (addf : (⟨S8192x8192, .f32⟩ : BufTy).Contents (Elt F) → (⟨S8192x8192, .f32⟩ : BufTy).Contents (Elt F) → (⟨S8192x8192, .f32⟩ : BufTy).Contents (Elt F)),
    unary main_v6 main_v14 ((transpose S3x8192 [1, 0] · transposes_S8192x3_S3x8192_1_0) : (⟨S8192x3, .f32⟩ : BufTy).Contents (Elt F) → (⟨S3x8192, .f32⟩ : BufTy).Contents (Elt F)),
    binary main_v6 main_v14 main_v15 ((fun l r => Host.dotGeneral dot_S8192x3_S3x8192_S8192x8192_1_0_0_1_n_n none l r) : (⟨S8192x3, .f32⟩ : BufTy).Contents (Elt F) → (⟨S3x8192, .f32⟩ : BufTy).Contents (Elt F) → (⟨S8192x8192, .f32⟩ : BufTy).Contents (Elt F)),
    nullary main_cst_2 (constant S_ .f32 0x40000000#32),
    unary main_cst_2 main_v16 (broadcastInDim S8192x8192 ![] bcast_S_S8192x8192 : (⟨S_, .f32⟩ : BufTy).Contents (Elt F) → (⟨S8192x8192, .f32⟩ : BufTy).Contents (Elt F)),
    binary main_v16 main_v15 main_v17 (mulf : (⟨S8192x8192, .f32⟩ : BufTy).Contents (Elt F) → (⟨S8192x8192, .f32⟩ : BufTy).Contents (Elt F) → (⟨S8192x8192, .f32⟩ : BufTy).Contents (Elt F)),
    binary main_v13 main_v17 main_v18 (subf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x00000000#32),
    unary main_cst_3 main_v19 (broadcastInDim S8192x8192 ![] bcast_S_S8192x8192 : (⟨S_, .f32⟩ : BufTy).Contents (Elt F) → (⟨S8192x8192, .f32⟩ : BufTy).Contents (Elt F)),
    binary main_v18 main_v19 main_v20 (maximumf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0xBF000000#32),
    unary main_cst_4 main_v21 (broadcastInDim S8192x8192 ![] bcast_S_S8192x8192 : (⟨S_, .f32⟩ : BufTy).Contents (Elt F) → (⟨S8192x8192, .f32⟩ : BufTy).Contents (Elt F)),
    binary main_v21 main_v20 main_v22 (mulf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x3E800000#32),
    unary main_cst_5 main_v23 (broadcastInDim S8192x8192 ![] bcast_S_S8192x8192 : (⟨S_, .f32⟩ : BufTy).Contents (Elt F) → (⟨S8192x8192, .f32⟩ : BufTy).Contents (Elt F)),
    binary main_v22 main_v23 main_v24 (Host.divf : (⟨S8192x8192, .f32⟩ : BufTy).Contents (Elt F) → (⟨S8192x8192, .f32⟩ : BufTy).Contents (Elt F) → (⟨S8192x8192, .f32⟩ : BufTy).Contents (Elt F)),
    unary main_v24 main_v25 (Host.exp : (⟨S8192x8192, .f32⟩ : BufTy).Contents (Elt F) → (⟨S8192x8192, .f32⟩ : BufTy).Contents (Elt F)),
    unary main_v25 main_v26 (Host.exp : (⟨S8192x8192, .f32⟩ : BufTy).Contents (Elt F) → (⟨S8192x8192, .f32⟩ : BufTy).Contents (Elt F)),
    nullary main_cst_6 (constant S_ .f32 0x00000000#32),
    binary main_v26 main_cst_6 main_v27 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v27 main_v28 (broadcastInDim S8192x1 ![0] bcast_S8192_S8192x1_0 : (⟨S8192, .f32⟩ : BufTy).Contents (Elt F) → (⟨S8192x1, .f32⟩ : BufTy).Contents (Elt F)),
    unary main_v28 main_v29 (broadcastInDim S8192x8192 ![0, 1] bcast_S8192x1_S8192x8192_0_1 : (⟨S8192x1, .f32⟩ : BufTy).Contents (Elt F) → (⟨S8192x8192, .f32⟩ : BufTy).Contents (Elt F)),
    binary main_v26 main_v29 main_v30 (Host.divf : (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x38D1B717#32),
    unary main_cst_7 main_v31 (broadcastInDim S8192x8192 ![] bcast_S_S8192x8192 : (⟨S_, .f32⟩ : BufTy).Contents (Elt F) → (⟨S8192x8192, .f32⟩ : BufTy).Contents (Elt F)),
    binary main_v30 main_v31 main_v32 (cmpf .ogt : (⟨S8192x8192, .f32⟩ : BufTy).Contents (Elt F) → (⟨S8192x8192, .f32⟩ : BufTy).Contents (Elt F) → (⟨S8192x8192, .i1⟩ : BufTy).Contents (Elt F)),
    unary main_arg1 main_v33 (broadcastInDim S8192x1 ![0] bcast_S8192_S8192x1_0 : (⟨S8192, .i32⟩ : BufTy).Contents (Elt F) → (⟨S8192x1, .i32⟩ : BufTy).Contents (Elt F)),
    unary main_arg1 main_v34 (broadcastInDim S1x8192 ![1] bcast_S8192_S1x8192_1 : (⟨S8192, .i32⟩ : BufTy).Contents (Elt F) → (⟨S1x8192, .i32⟩ : BufTy).Contents (Elt F)),
    unary main_v33 main_v35 (broadcastInDim S8192x8192 ![0, 1] bcast_S8192x1_S8192x8192_0_1 : (⟨S8192x1, .i32⟩ : BufTy).Contents (Elt F) → (⟨S8192x8192, .i32⟩ : BufTy).Contents (Elt F)),
    unary main_v34 main_v36 (broadcastInDim S8192x8192 ![0, 1] bcast_S1x8192_S8192x8192_0_1 : (⟨S1x8192, .i32⟩ : BufTy).Contents (Elt F) → (⟨S8192x8192, .i32⟩ : BufTy).Contents (Elt F)),
    binary main_v35 main_v36 main_v37 (cmpi .eq : (⟨S8192x8192, .i32⟩ : BufTy).Contents (Elt F) → (⟨S8192x8192, .i32⟩ : BufTy).Contents (Elt F) → (⟨S8192x8192, .i1⟩ : BufTy).Contents (Elt F)),
    binary main_v32 main_v37 main_v38 (andi : (⟨S8192x8192, .i1⟩ : BufTy).Contents (Elt F) → (⟨S8192x8192, .i1⟩ : BufTy).Contents (Elt F) → (⟨S8192x8192, .i1⟩ : BufTy).Contents (Elt F)),
    nullary main_cst_8 (constant S_ .f32 0x00000000#32),
    TRef.unary (.of main_cst_8) main_call0.v0 id,
    TRef.unary main_call0.v0 main_call0.v1 (broadcastInDim S8192x8192 ![] bcast_S_S8192x8192),
    TRef.ternary (.of main_v38) (.of main_v30) main_call0.v1 main_call0.v2 select ]

set_option maxRecDepth 4096 in
/-- The main function is that straight line: the helper's body unfolded at its call and sequencing
    reassociated, both sides are one chain of steps. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., ternary_bufs_sub ..⟩

/-- The fold read at the result buffer: the stages composed, `out` of the two arguments' contents. -/
theorem out_eq (V : Valuation τ sig (Elt F)) :
    after ops V (main_v39 : DevRef τ sig) = out (F := F) (V (main_arg0 : DevRef τ sig)) (V (main_arg1 : DevRef τ sig)) := by
  after_results_simp
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- On the device, for any float values, from any memory with zero counters: every weakly fair execution of
    the main function terminates with the result buffer at `out` of the arguments' launch contents and the
    arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v39) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v39).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RefValue

end
-- ==== Proof.RefRead.lean ====
/-
  The reference's result read at an index. Each stage of the reference, read at coordinates: the gather at the
  constant column numbers 0, 1, 2 takes row `r`'s first three coordinates; the squared norm of a row is the sum of
  their squares; the product of the gathered array with its transpose at (r, s) is the inner product of rows `r` and
  `s`; the broadcasts read a row's or a column's value; the pointwise stages give the clamped squared distance, the two
  exponentials, the quotient by the row's sum over all 8192 columns, the threshold test, the graph-id test and the
  selection against zero. Together: the reference's result is the specified function `Cert.Spec.G` of its two arguments.
-/
import proofs.«153872_j12945031430844_1_alg».proof.Proof.RefTerm
import proofs.«153872_j12945031430844_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Idealize.ShloMosaic Idealize.ShloMosaic.ValueIdx Cert.ReferenceIdeal Cert.ReferenceIdeal.Facts₀
open scoped BigOperators

/-! ## The gathered columns -/

/-- The index vector, wrapped where negative (nowhere), as a column: place `k` holds the word `k`. -/
theorem s_v5_apply (k : Fin 3) : s_v5 (ix2 k (0 : Fin 1)) = BitVec.ofNat 32 k.val := by
  fin_cases k <;> rfl

/-- The gather of whole columns of a [8192, 6] array at a [3, 1] array of column numbers, read at (r, k): row `r` of
    the operand at the column the `k`-th start index names, read signed and clamped into [0, 5]. -/
theorem gather_cols {α : Type} (x : S8192x6.Idx → α) (idx : IVec S3x1 32) (r : Fin 8192) (k : Fin 3) :
    Host.gather gather_S8192x6_S3x1_S8192x3_0_1_n_n_1_1_81921 x idx (ix2 r k)
      = x (ix2 r (⟨min (idx (ix2 k (0 : Fin 1))).toInt.toNat 5, by omega⟩ : Fin 6)) := by
  unfold Host.gather
  congr 1
  funext a
  refine Fin.ext ?_
  match a with
  | ⟨0, _⟩ =>
    show gather_S8192x6_S3x1_S8192x3_0_1_n_n_1_1_81921.start (ix2 r k) idx 0
        + gather_S8192x6_S3x1_S8192x3_0_1_n_n_1_1_81921.batchCoord (ix2 r k) 0
        + gather_S8192x6_S3x1_S8192x3_0_1_n_n_1_1_81921.offCoord (ix2 r k) 0 = r.val
    rw [GatherDims.batchCoord_eq_zero _ _ _ List.not_mem_nil]
    have h0 : gather_S8192x6_S3x1_S8192x3_0_1_n_n_1_1_81921.start (ix2 r k) idx 0 = 0 := by
      unfold GatherDims.start
      exact dif_neg (by decide)
    have h1 : gather_S8192x6_S3x1_S8192x3_0_1_n_n_1_1_81921.offCoord (ix2 r k) 0 = r.val := rfl
    rw [h0, h1]
    omega
  | ⟨1, _⟩ =>
    show gather_S8192x6_S3x1_S8192x3_0_1_n_n_1_1_81921.start (ix2 r k) idx 1
        + gather_S8192x6_S3x1_S8192x3_0_1_n_n_1_1_81921.batchCoord (ix2 r k) 1
        + gather_S8192x6_S3x1_S8192x3_0_1_n_n_1_1_81921.offCoord (ix2 r k) 1
      = min (idx (ix2 k (0 : Fin 1))).toInt.toNat 5
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x6_S3x1_S8192x3_0_1_n_n_1_1_81921.startIndexMap
      from List.mem_singleton.mpr rfl)]
    have hsi : gather_S8192x6_S3x1_S8192x3_0_1_n_n_1_1_81921.siIdx (ix2 r k)
        ⟨List.idxOf (1 : Fin 2) gather_S8192x6_S3x1_S8192x3_0_1_n_n_1_1_81921.startIndexMap,
          List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

/-- The words 0, 1, 2 read signed and clamped into [0, 5] are 0, 1, 2. -/
theorem clamp_col (k : Fin 3) : min (BitVec.ofNat 32 k.val).toInt.toNat 5 = k.val := by
  fin_cases k <;> rfl

/-- `%6` at (r, k): coordinate `k` of row `r`. -/
theorem s_v6_apply (x : FVec Ideal S8192x6 .f32) (r : Fin 8192) (k : Fin 3) :
    s_v6 (F := Ideal) x (ix2 r k) = Cert.Spec.xyz x r k := by
  unfold s_v6
  refine (gather_cols x s_v5 r k).trans ?_
  unfold Cert.Spec.xyz
  refine congrArg x (congrArg (ix2 r) (Fin.ext ?_))
  show min (s_v5 (ix2 k (0 : Fin 1))).toInt.toNat 5 = k.val
  rw [s_v5_apply, clamp_col]

theorem s_v7_apply (x : FVec Ideal S8192x6 .f32) (r : Fin 8192) (k : Fin 3) :
    s_v7 (F := Ideal) x (ix2 r k) = Cert.Spec.xyz x r k * Cert.Spec.xyz x r k := by
  unfold s_v7
  rw [mulf_apply, s_v6_apply]

/-! ## Layout operations at an index, at the program's literal shapes -/

theorem bc_scalar {α : Type} {T : Shape} (h : S_.BroadcastsInDim T (![] : Fin 0 → Fin T.rank)) (v : S_.Idx → α) (j : T.Idx) :
    broadcastInDim T ![] h v j = v ix0 := by
  unfold broadcastInDim; exact congrArg v (funext fun a => a.elim0)

theorem bc_col {α : Type} (h : S8192.BroadcastsInDim S8192x1 (![0] : Fin 1 → Fin S8192x1.rank)) (v : S8192.Idx → α)
    (r : Fin 8192) : broadcastInDim S8192x1 ![0] h v (ix2 r (0 : Fin 1)) = v (ix1 r) :=
  broadcastInDim_apply _ h v _ _ fun a => match a with | ⟨0, _⟩ => rfl

theorem bc_row {α : Type} (h : S8192.BroadcastsInDim S1x8192 (![1] : Fin 1 → Fin S1x8192.rank)) (v : S8192.Idx → α)
    (s : Fin 8192) : broadcastInDim S1x8192 ![1] h v (ix2 (0 : Fin 1) s) = v (ix1 s) :=
  broadcastInDim_apply _ h v _ _ fun a => match a with | ⟨0, _⟩ => rfl

theorem bc_col_full {α : Type} (h : S8192x1.BroadcastsInDim S8192x8192 (![0, 1] : Fin 2 → Fin S8192x8192.rank))
    (v : S8192x1.Idx → α) (r s : Fin 8192) :
    broadcastInDim S8192x8192 ![0, 1] h v (ix2 r s) = v (ix2 r (0 : Fin 1)) :=
  broadcastInDim_apply _ h v _ _ fun a => match a with | ⟨0, _⟩ => rfl | ⟨1, _⟩ => rfl

theorem bc_row_full {α : Type} (h : S1x8192.BroadcastsInDim S8192x8192 (![0, 1] : Fin 2 → Fin S8192x8192.rank))
    (v : S1x8192.Idx → α) (r s : Fin 8192) :
    broadcastInDim S8192x8192 ![0, 1] h v (ix2 r s) = v (ix2 (0 : Fin 1) s) :=
  broadcastInDim_apply _ h v _ _ fun a => match a with | ⟨0, _⟩ => rfl | ⟨1, _⟩ => rfl

/-! ## The squared norms -/

/-- `%8` at r: the squared norm of row `r`'s three coordinates. -/
theorem s_v8_apply (x : FVec Ideal S8192x6 .f32) (r : Fin 8192) :
    s_v8 (F := Ideal) x (ix1 r) = ∑ k : Fin 3, Cert.Spec.xyz x r k * Cert.Spec.xyz x r k := by
  unfold s_v8
  rw [hostReduceAdd_apply]
  have hR : S8192x3.Reduces [1] S8192 := by decide
  refine (Ideal.hostReduceAdd_single reducesTo_S8192x3_S8192_d1 hR (s_v7 (F := Ideal) x) _ (ix1 r)).trans ?_
  rw [constant_apply, Ideal.ofBits_zero_f32, zero_add]
  refine Finset.sum_congr rfl fun (k : Fin 3) _ => ?_
  have e : hR.lift (ix1 r) k = ix2 r k :=
    funext fun a => Fin.ext (by match a with | ⟨0, _⟩ => rfl | ⟨1, _⟩ => rfl)
  rw [e]
  exact s_v7_apply x r k

theorem s_v13_apply (x : FVec Ideal S8192x6 .f32) (r s : Fin 8192) :
    s_v13 (F := Ideal) x (ix2 r s)
      = (∑ k : Fin 3, Cert.Spec.xyz x r k * Cert.Spec.xyz x r k) + (∑ k : Fin 3, Cert.Spec.xyz x s k * Cert.Spec.xyz x s k) := by
  unfold s_v13
  rw [addf_apply]
  unfold s_v11 s_v12
  rw [bc_col_full, bc_row_full]
  unfold s_v9 s_v10
  rw [bc_col, bc_row, s_v8_apply, s_v8_apply]

/-! ## The pairwise products -/

theorem lhs_dot_0 (i : S8192x8192.Idx) (q : dot_S8192x3_S3x8192_S8192x8192_1_0_0_1_n_n.contr.Idx) :
    (dot_S8192x3_S3x8192_S8192x8192_1_0_0_1_n_n.lhsIdx i q 0).val = (i 0).val := by
  unfold DotDims.lhsIdx
  rw [dif_neg (show ¬(0 : Fin S8192x3.rank) ∈ dot_S8192x3_S3x8192_S8192x8192_1_0_0_1_n_n.lhsBatch by decide),
    dif_pos (show (0 : Fin S8192x3.rank) ∈ dot_S8192x3_S3x8192_S8192x8192_1_0_0_1_n_n.lhsNonContracting by decide)]
  rfl

theorem lhs_dot_1 (i : S8192x8192.Idx) (q : dot_S8192x3_S3x8192_S8192x8192_1_0_0_1_n_n.contr.Idx) :
    (dot_S8192x3_S3x8192_S8192x8192_1_0_0_1_n_n.lhsIdx i q 1).val = (q ⟨0, by decide⟩).val :=
  dot_S8192x3_S3x8192_S8192x8192_1_0_0_1_n_n.lhsIdx_val_of_single rfl i q

theorem rhs_dot_0 (i : S8192x8192.Idx) (q : dot_S8192x3_S3x8192_S8192x8192_1_0_0_1_n_n.contr.Idx) :
    (dot_S8192x3_S3x8192_S8192x8192_1_0_0_1_n_n.rhsIdx i q 0).val = (q ⟨0, by decide⟩).val :=
  dot_S8192x3_S3x8192_S8192x8192_1_0_0_1_n_n.rhsIdx_val_of_single rfl i q

theorem rhs_dot_1 (i : S8192x8192.Idx) (q : dot_S8192x3_S3x8192_S8192x8192_1_0_0_1_n_n.contr.Idx) :
    (dot_S8192x3_S3x8192_S8192x8192_1_0_0_1_n_n.rhsIdx i q 1).val = (i 1).val := by
  unfold DotDims.rhsIdx
  rw [dif_neg (show ¬(1 : Fin S3x8192.rank) ∈ dot_S8192x3_S3x8192_S8192x8192_1_0_0_1_n_n.rhsBatch by decide),
    dif_pos (show (1 : Fin S3x8192.rank) ∈ dot_S8192x3_S3x8192_S8192x8192_1_0_0_1_n_n.rhsNonContracting by decide)]
  rfl

/-- The product of a [8192, 3] array and a [3, 8192] array at (r, s): the sum over the three middle places. -/
theorem dot_apply (A : FVec Ideal S8192x3 .f32) (B : FVec Ideal S3x8192 .f32) (r s : Fin 8192) :
    Host.dotGeneral dot_S8192x3_S3x8192_S8192x8192_1_0_0_1_n_n none A B (ix2 r s)
      = ∑ k : Fin 3, A (ix2 r k) * B (ix2 k s) := by
  simp only [Host.dotGeneral]
  rw [Ideal.dotGeneral_apply,
    ← Equiv.sum_comp (contrEquiv1 dot_S8192x3_S3x8192_S8192x8192_1_0_0_1_n_n 3 rfl rfl).symm]
  refine Finset.sum_congr rfl fun k _ => ?_
  have hk := contrEquiv1_symm_val dot_S8192x3_S3x8192_S8192x8192_1_0_0_1_n_n 3 rfl rfl k
  have el : dot_S8192x3_S3x8192_S8192x8192_1_0_0_1_n_n.lhsIdx (ix2 r s)
      ((contrEquiv1 dot_S8192x3_S3x8192_S8192x8192_1_0_0_1_n_n 3 rfl rfl).symm k) = ix2 r k :=
    funext fun a => Fin.ext (by
      match a with
      | ⟨0, _⟩ => exact lhs_dot_0 _ _
      | ⟨1, _⟩ => exact (lhs_dot_1 _ _).trans hk)
  have er : dot_S8192x3_S3x8192_S8192x8192_1_0_0_1_n_n.rhsIdx (ix2 r s)
      ((contrEquiv1 dot_S8192x3_S3x8192_S8192x8192_1_0_0_1_n_n 3 rfl rfl).symm k) = ix2 k s :=
    funext fun a => Fin.ext (by
      match a with
      | ⟨0, _⟩ => exact (rhs_dot_0 _ _).trans hk
      | ⟨1, _⟩ => exact rhs_dot_1 _ _)
  rw [el, er]

theorem s_v14_apply (x : FVec Ideal S8192x6 .f32) (k : Fin 3) (s : Fin 8192) :
    s_v14 (F := Ideal) x (ix2 k s) = Cert.Spec.xyz x s k := by
  unfold s_v14
  rw [transpose_ix2_apply, s_v6_apply]

/-- `%15` at (r, s): the inner product of the two rows' coordinates. -/
theorem s_v15_apply (x : FVec Ideal S8192x6 .f32) (r s : Fin 8192) :
    s_v15 (F := Ideal) x (ix2 r s) = ∑ k : Fin 3, Cert.Spec.xyz x r k * Cert.Spec.xyz x s k := by
  unfold s_v15
  rw [dot_apply]
  refine Finset.sum_congr rfl fun k _ => ?_
  rw [s_v6_apply, s_v14_apply]

/-! ## The affinity -/

theorem splat_apply (w : BitVec 32) (j : S8192x8192.Idx) :
    broadcastInDim S8192x8192 ![] bcast_S_S8192x8192 (constant (F := Ideal) S_ .f32 w) j = Ideal.ofBits .f32 w := by
  rw [bc_scalar, constant_apply]

/-- `%26` at (r, s): the affinity of rows `r` and `s`. -/
theorem s_v26_apply (x : FVec Ideal S8192x6 .f32) (r s : Fin 8192) :
    s_v26 (F := Ideal) x (ix2 r s) = Cert.Spec.aff x r s := by
  unfold s_v26 s_v25 s_v24 s_v22 s_v20 s_v18 s_v17 s_v23 s_v21 s_v19 s_v16
  unfold Cert.Spec.aff Cert.Spec.aff3
  show Ideal.exp (Ideal.exp (Ideal.div (_ * max (s_v13 (F := Ideal) x (ix2 r s) - _ * s_v15 (F := Ideal) x (ix2 r s)) _) _)) = _
  rw [s_v13_apply, s_v15_apply, splat_apply, splat_apply, splat_apply, splat_apply]

/-! ## The row sums, the weights, the tests -/

/-- `%27` at r: row `r`'s affinities summed over every column. -/
theorem s_v27_apply (x : FVec Ideal S8192x6 .f32) (r : Fin 8192) :
    s_v27 (F := Ideal) x (ix1 r) = Cert.Spec.rowsum x r := by
  unfold s_v27
  rw [hostReduceAdd_apply]
  have hR : S8192x8192.Reduces [1] S8192 := by decide
  refine (Ideal.hostReduceAdd_single reducesTo_S8192x8192_S8192_d1 hR (s_v26 (F := Ideal) x) _ (ix1 r)).trans ?_
  rw [constant_apply, Ideal.ofBits_zero_f32, zero_add]
  unfold Cert.Spec.rowsum
  refine Finset.sum_congr rfl fun (s : Fin 8192) _ => ?_
  have e : hR.lift (ix1 r) s = ix2 r s :=
    funext fun a => Fin.ext (by match a with | ⟨0, _⟩ => rfl | ⟨1, _⟩ => rfl)
  rw [e]
  exact s_v26_apply x r s

theorem s_v29_apply (x : FVec Ideal S8192x6 .f32) (r s : Fin 8192) :
    s_v29 (F := Ideal) x (ix2 r s) = Cert.Spec.rowsum x r := by
  unfold s_v29
  rw [bc_col_full]
  unfold s_v28
  rw [bc_col, s_v27_apply]

/-- `%30` at (r, s): the affinity over its row's sum. -/
theorem s_v30_apply (x : FVec Ideal S8192x6 .f32) (r s : Fin 8192) :
    s_v30 (F := Ideal) x (ix2 r s) = Ideal.div (Cert.Spec.aff x r s) (Cert.Spec.rowsum x r) := by
  unfold s_v30
  rw [hostDivf_apply, s_v26_apply, s_v29_apply]

theorem s_v32_apply (x : FVec Ideal S8192x6 .f32) (r s : Fin 8192) :
    s_v32 (F := Ideal) x (ix2 r s)
      = FloatOps.cmpf (F := Ideal) (φ := .f32) .ogt (Ideal.div (Cert.Spec.aff x r s) (Cert.Spec.rowsum x r))
          (Ideal.ofBits .f32 0x38D1B717#32) := by
  unfold s_v32 s_v31
  rw [cmpf_apply, s_v30_apply, splat_apply]

theorem s_v37_apply (b : IVec S8192 32) (r s : Fin 8192) :
    s_v37 b (ix2 r s) = IntOp.cmpi .eq (b (ix1 r)) (b (ix1 s)) := by
  unfold s_v37
  show IntOp.cmpi .eq (s_v35 b (ix2 r s)) (s_v36 b (ix2 r s)) = _
  unfold s_v35 s_v36
  rw [bc_col_full, bc_row_full]
  unfold s_v33 s_v34
  rw [bc_col, bc_row]

theorem s_v38_apply (x : FVec Ideal S8192x6 .f32) (b : IVec S8192 32) (r s : Fin 8192) :
    s_v38 (F := Ideal) x b (ix2 r s)
      = IntOp.andi (FloatOps.cmpf (F := Ideal) (φ := .f32) .ogt (Ideal.div (Cert.Spec.aff x r s) (Cert.Spec.rowsum x r))
          (Ideal.ofBits .f32 0x38D1B717#32)) (IntOp.cmpi .eq (b (ix1 r)) (b (ix1 s))) := by
  unfold s_v38
  show IntOp.andi (s_v32 (F := Ideal) x (ix2 r s)) (s_v37 b (ix2 r s)) = _
  rw [s_v32_apply, s_v37_apply]

theorem s_call_v1_apply (j : S8192x8192.Idx) : s_call_v1 (F := Ideal) j = Cert.Spec.zf := by
  unfold s_call_v1
  rw [bc_scalar]
  rfl

/-- The result at (r, s). -/
theorem out_apply (x : FVec Ideal S8192x6 .f32) (b : IVec S8192 32) (r s : Fin 8192) :
    out (F := Ideal) x b (ix2 r s)
      = Cert.Spec.entry (Cert.Spec.aff x r s) (Cert.Spec.rowsum x r) (b (ix1 r)) (b (ix1 s)) := by
  unfold out
  rw [select_apply, s_v38_apply, s_v30_apply, s_call_v1_apply]
  rfl

/-- THE REFERENCE'S RESULT is the specified function of the two arguments. -/
theorem out_eq_G (x : FVec Ideal S8192x6 .f32) (b : IVec S8192 32) : out (F := Ideal) x b = Cert.Spec.G x b := by
  funext i
  obtain ⟨r, s, rfl⟩ : ∃ (r s : Fin 8192), i = ix2 r s := ⟨i 0, i 1, eq_ix2 i⟩
  exact out_apply x b r s

end Cert.ReferenceIdeal.RefValue

end
-- ==== Proof.lean ====
/-
  The adjacency kernel against its reference, over the extended reals.

  Both programs take the first three columns of `x` as points in space; for two rows `r`, `s` the squared distance is
  `(|u|² + |v|²) − 2·⟨u, v⟩` clamped below at zero, the affinity `exp (exp ((−½·d²) / ¼))`; a row's affinities are divided by
  their sum over all 8192 columns; an entry is kept when that weight exceeds the threshold word and the two rows carry the same
  graph id, and is the zero word otherwise (`Cert.Spec.G`). The two programs spell the same float words everywhere, so no word is
  ever evaluated. They differ in one thing: the reference sums a row's 8192 affinities at once, the kernel's first region sums
  them as eight partial sums of 1024, added up from zero in grid order into an accumulator that it zeroes at a row block's
  first column block and copies out at the last; addition on the extended reals is commutative and associative, so the two
  sums agree (`Cert.Spec.accum_eq_sum`) and the inputs' finiteness is never used.

  The kernel program is two kernel regions after three host operations. Each region's frame — every weakly fair execution
  terminates, nothing faults — is proved from the region's body run at every grid point (the first region by cases on the
  column block, its accumulator carried from point to point; the second in one case), over proof data that name what every
  output block holds after every point; the two windows of a region that read the one coordinates' array hold it at the two
  halves of the share. The same text serves the word-level program and the idealized one. The idealized run names the result
  array, which is then read block by block back to `G`; the reference's run is its operations composed, read at an index to `G`.
-/
import proofs.«153872_j12945031430844_1_alg».proof.Defs
import proofs.«153872_j12945031430844_1_alg».proof.Proof.Gen.Kernel
import proofs.«153872_j12945031430844_1_alg».proof.Proof.Gen.KernelIdeal
import proofs.«153872_j12945031430844_1_alg».proof.Proof.Gen.ReferenceIdeal
import proofs.«153872_j12945031430844_1_alg».proof.Proof.Gen.Pre_finite_inputs
import proofs.«153872_j12945031430844_1_alg».proof.Proof.Bits.Run
import proofs.«153872_j12945031430844_1_alg».proof.Proof.KernelValue
import proofs.«153872_j12945031430844_1_alg».proof.Proof.RefRun
import proofs.«153872_j12945031430844_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Fr.frame m ρ

/-- So does the idealized kernel program. -/
theorem frame_kernelIdeal : Cert.frame_KernelIdeal := fun m ρ _ => Cert.KernelIdeal.Fr.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- From memories agreeing on the arguments both idealized programs end with the result array at `G` of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.KVal.run_G m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.out_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
